-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  IdealRules.truncf_extf.Statement Cert.KernelIdeal.S8x64x128 .f32 .bf16

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v4)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v4) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v18) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S256x128x36x36 : Shape := ⟨4, ![256, 128, 36, 36]⟩
abbrev S256x36x36 : Shape := ⟨3, ![256, 36, 36]⟩
abbrev S_ : Shape := ⟨0, ![]⟩

class Facts : Prop where
  bcast_S_S256x128x36x36 : S_.BroadcastsInDim S256x128x36x36 (![] : Fin 0 → Fin S256x128x36x36.rank)
  reducesTo_S256x128x36x36_S_d0_1_2_3 : S256x128x36x36.ReducesTo [0, 1, 2, 3] S_
  h_S_ : 0 < S_.numel
  bcast_S_S256x36x36 : S_.BroadcastsInDim S256x36x36 (![] : Fin 0 → Fin S256x36x36.rank)
  reducesTo_S256x36x36_S_d0_1_2 : S256x36x36.ReducesTo [0, 1, 2] S_

variable [Facts]

def fn {F : FTy → Type} [FloatOps F] (main_arg0 : FVec F S256x128x36x36 .f32) (main_arg1 : IVec S256x36x36 32) : IVec S_ 1 :=
  let main_v0 : FVec F S256x128x36x36 .f32 := Host.absf main_arg0
  let main_cst : FVec F S_ .f32 := constant S_ .f32 0x7F800000#32
  let main_v1 : FVec F S256x128x36x36 .f32 := broadcastInDim S256x128x36x36 ![] bcast_S_S256x128x36x36 main_cst
  let main_v2 : IVec S256x128x36x36 1 := cmpf .olt main_v0 main_v1
  let main_c : IVec S_ 1 := constantI S_ 1 1#1
  let main_v3 : IVec S_ 1 := (fun x v => Host.reduce IntOp.andi x v reducesTo_S256x128x36x36_S_d0_1_2_3 h_S_) main_v2 main_c
  let main_c_0 : IVec S_ 32 := constantI S_ 32 0#32
  let main_v4 : IVec S256x36x36 32 := broadcastInDim S256x36x36 ![] bcast_S_S256x36x36 main_c_0
  let main_v5 : IVec S256x36x36 1 := cmpi .sge main_arg1 main_v4
  let main_c_1 : IVec S_ 1 := constantI S_ 1 1#1
  let main_v6 : IVec S_ 1 := (fun x v => Host.reduce IntOp.andi x v reducesTo_S256x36x36_S_d0_1_2 h_S_) main_v5 main_c_1
  let main_v7 : IVec S_ 1 := andi main_v3 main_v6
  let main_c_2 : IVec S_ 32 := constantI S_ 32 64#32
  let main_v8 : IVec S256x36x36 32 := broadcastInDim S256x36x36 ![] bcast_S_S256x36x36 main_c_2
  let main_v9 : IVec S256x36x36 1 := cmpi .slt main_arg1 main_v8
  let main_c_3 : IVec S_ 1 := constantI S_ 1 1#1
  let main_v10 : IVec S_ 1 := (fun x v => Host.reduce IntOp.andi x v reducesTo_S256x36x36_S_d0_1_2 h_S_) main_v9 main_c_3
  let main_v11 : IVec S_ 1 := andi main_v7 main_v10
  main_v11
-- ==== Kernel.lean ====
abbrev S256x128x36x36 : Shape := ⟨4, ![256, 128, 36, 36]⟩
abbrev S256x36x36 : Shape := ⟨3, ![256, 36, 36]⟩
abbrev S256x128x1296 : Shape := ⟨3, ![256, 128, 1296]⟩
abbrev S256x1x1296 : Shape := ⟨3, ![256, 1, 1296]⟩
abbrev S8x128x1296 : Shape := ⟨3, ![8, 128, 1296]⟩
abbrev S8x1x1296 : Shape := ⟨3, ![8, 1, 1296]⟩
abbrev S8x1296 : Shape := ⟨2, ![8, 1296]⟩
abbrev S1x64x1 : Shape := ⟨3, ![1, 64, 1]⟩
abbrev S8x64x1296 : Shape := ⟨3, ![8, 64, 1296]⟩
abbrev S8x64 : Shape := ⟨2, ![8, 64]⟩
abbrev S8x64x1 : Shape := ⟨3, ![8, 64, 1]⟩
abbrev S8x64x128 : Shape := ⟨3, ![8, 64, 128]⟩
abbrev S256x1296 : Shape := ⟨2, ![256, 1296]⟩
abbrev S256x1296x1 : Shape := ⟨3, ![256, 1296, 1]⟩

abbrev nBuf : Space → Nat
  | .hbm => 7
  | .vmem => 6
  | .smem => 0
  | _ => 0

abbrev bufTy : (tb : Table) → Fin (tcTables nBuf tb) → BufTy
  | .hbm, ⟨0, _⟩ => ⟨S256x128x36x36, .f32⟩
  | .hbm, ⟨1, _⟩ => ⟨S256x36x36, .i32⟩
  | .hbm, ⟨2, _⟩ => ⟨S256x128x1296, .f32⟩
  | .hbm, ⟨3, _⟩ => ⟨S256x1x1296, .i32⟩
  | .hbm, ⟨4, _⟩ => ⟨S256x1x1296, .f32⟩
  | .hbm, ⟨5, _⟩ => ⟨S256x1296, .f32⟩
  | .hbm, ⟨6, _⟩ => ⟨S256x1296x1, .f32⟩
  | .local _ .vmem, ⟨0, _⟩ => ⟨S8x128x1296, .f32⟩
  | .local _ .vmem, ⟨1, _⟩ => ⟨S8x128x1296, .f32⟩
  | .local _ .vmem, ⟨2, _⟩ => ⟨S8x1x1296, .i32⟩
  | .local _ .vmem, ⟨3, _⟩ => ⟨S8x1x1296, .i32⟩
  | .local _ .vmem, ⟨4, _⟩ => ⟨S8x1x1296, .f32⟩
  | .local _ .vmem, ⟨5, _⟩ => ⟨S8x1x1296, .f32⟩
  | _, _ => ⟨S256x128x36x36, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨1, ![32], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S8x128x1296 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S8x1x1296 .i32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S8x1x1296 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

class Facts₀ : Prop where
  shapeCasts_S256x128x36x36_S256x128x1296 : S256x128x36x36.ShapeCasts S256x128x1296
  shapeCasts_S256x36x36_S256x1x1296 : S256x36x36.ShapeCasts S256x1x1296
  inb_S8x128x1296_S8x128x1296_0_0_0 : ∀ a, (![0, 0, 0] : Fin 3 → Nat) a + S8x128x1296.size a ≤ S8x128x1296.size a
  h_S8x128x1296 : 0 < S8x128x1296.numel
  shapeCasts_S8x128x1296_S8x128x1296 : S8x128x1296.ShapeCasts S8x128x1296
  inb_S8x1x1296_S8x1x1296_0_0_0 : ∀ a, (![0, 0, 0] : Fin 3 → Nat) a + S8x1x1296.size a ≤ S8x1x1296.size a
  h_S8x1x1296 : 0 < S8x1x1296.numel
  shapeCasts_S8x1x1296_S8x1296 : S8x1x1296.ShapeCasts S8x1296
  iota_S1x64x1_d1_w32 : S1x64x1.Iotas .tc 32 [1]
  shapeCasts_S8x1296_S8x1x1296 : S8x1296.ShapeCasts S8x1x1296
  broadcasts_S8x1x1296_S8x64x1296 : S8x1x1296.Broadcasts S8x64x1296
  broadcasts_S1x64x1_S8x64x1296 : S1x64x1.Broadcasts S8x64x1296
  natLt_1_32 : 1 < 32
  bitsLt_bf16_f32 : FTy.bits .bf16 < FTy.bits .f32
  reduces_S8x64x1296_S8x64 : S8x64x1296.Reduces [2] S8x64
  shapeCasts_S8x64_S8x64x1 : S8x64.ShapeCasts S8x64x1
  broadcasts_S8x64x1_S8x64x128 : S8x64x1.Broadcasts S8x64x128
  reduces_S8x64x128_S8x64 : S8x64x128.Reduces [2] S8x64
  broadcasts_S8x64x1_S8x64x1296 : S8x64x1.Broadcasts S8x64x1296
  reduces_S8x64x1296_S8x1296 : S8x64x1296.Reduces [1] S8x1296
  reduces_S8x128x1296_S8x1296 : S8x128x1296.Reduces [1] S8x1296
  shapeCasts_S256x1x1296_S256x1296 : S256x1x1296.ShapeCasts S256x1296
  bcast_S256x1296_S256x1296x1_0_1 : S256x1296.BroadcastsInDim S256x1296x1 (![0, 1] : Fin 2 → Fin S256x1296x1.rank)
  dot_S8x64x1296_S8x128x1296_S8x64x128_2_2_1_1_0_0_wf : DotDims.WF S8x64x1296 S8x128x1296 S8x64x128 [2] [2] [1] [1] [0] [0]
  dot_S8x64x128_S8x128x1296_S8x64x1296_2_1_1_2_0_0_wf : DotDims.WF S8x64x128 S8x128x1296 S8x64x1296 [2] [1] [1] [2] [0] [0]
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S8x128x1296.size a ≤ S256x128x1296.size a
  hwx0_0 : ∀ i : grid0.Coords, EltTy.bits .f32 = 32 ∨ (Rect.block (s := S256x128x1296) S8x128x1296.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S8x1x1296.size a ≤ S256x1x1296.size a
  hwx0_1 : ∀ i : grid0.Coords, EltTy.bits .i32 = 32 ∨ (Rect.block (s := S256x1x1296) S8x1x1296.size (cc0_transform_1 i) (hinb0_1 i)).WholeWords (EltTy.packing .i32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S8x1x1296.size a ≤ S256x1x1296.size a
  hwx0_2 : ∀ i : grid0.Coords, EltTy.bits .f32 = 32 ∨ (Rect.block (s := S256x1x1296) S8x1x1296.size (cc0_transform_2 i) (hinb0_2 i)).WholeWords (EltTy.packing .f32)

variable [Facts₀]

def dot_S8x64x1296_S8x128x1296_S8x64x128_2_2_1_1_0_0 : DotDims S8x64x1296 S8x128x1296 S8x64x128 where
  lhsContracting := [2]
  rhsContracting := [2]
  lhsNonContracting := [1]
  rhsNonContracting := [1]
  lhsBatch := [0]
  rhsBatch := [0]
  wf := dot_S8x64x1296_S8x128x1296_S8x64x128_2_2_1_1_0_0_wf
def dot_S8x64x128_S8x128x1296_S8x64x1296_2_1_1_2_0_0 : DotDims S8x64x128 S8x128x1296 S8x64x1296 where
  lhsContracting := [2]
  rhsContracting := [1]
  lhsNonContracting := [1]
  rhsNonContracting := [2]
  lhsBatch := [0]
  rhsBatch := [0]
  wf := dot_S8x64x128_S8x128x1296_S8x64x1296_2_1_1_2_0_0_wf

abbrev win0_0 : Pipeline.Window sig grid0 :=
  Pipeline.Window.ofSpec (Memref.whole main_v0) S8x128x1296.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v1) S8x1x1296.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v2) S8x1x1296.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

class Facts : Prop extends Facts₀ where

variable [Facts]
-- ==== ReferenceIdeal.lean ====
abbrev S256x128x36x36 : Shape := ⟨4, ![256, 128, 36, 36]⟩
abbrev S256x36x36 : Shape := ⟨3, ![256, 36, 36]⟩
abbrev S256x128x1296 : Shape := ⟨3, ![256, 128, 1296]⟩
abbrev S256x1296 : Shape := ⟨2, ![256, 1296]⟩
abbrev S256x1296x1 : Shape := ⟨3, ![256, 1296, 1]⟩
abbrev S1x1x64 : Shape := ⟨3, ![1, 1, 64]⟩
abbrev S256x1296x64 : Shape := ⟨3, ![256, 1296, 64]⟩
abbrev S_ : Shape := ⟨0, ![]⟩
abbrev S256x64 : Shape := ⟨2, ![256, 64]⟩
abbrev S256x128x64 : Shape := ⟨3, ![256, 128, 64]⟩
abbrev S256x1x64 : Shape := ⟨3, ![256, 1, 64]⟩
abbrev S256x1x1296 : Shape := ⟨3, ![256, 1, 1296]⟩
abbrev S256x128x1296x1 : Shape := ⟨4, ![256, 128, 1296, 1]⟩
abbrev S1 : Shape := ⟨1, ![1]⟩
abbrev S1x1x1x1 : Shape := ⟨4, ![1, 1, 1, 1]⟩

abbrev nBuf : Space → Nat
  | .hbm => 51
  | .vmem => 0
  | .smem => 0
  | _ => 0

abbrev bufTy : (tb : Table) → Fin (tcTables nBuf tb) → BufTy
  | .hbm, ⟨0, _⟩ => ⟨S256x128x36x36, .f32⟩
  | .hbm, ⟨1, _⟩ => ⟨S256x36x36, .i32⟩
  | .hbm, ⟨2, _⟩ => ⟨S256x128x1296, .f32⟩
  | .hbm, ⟨3, _⟩ => ⟨S256x1296, .i32⟩
  | .hbm, ⟨4, _⟩ => ⟨S256x1296x1, .i32⟩
  | .hbm, ⟨5, _⟩ => ⟨S1x1x64, .i32⟩
  | .hbm, ⟨6, _⟩ => ⟨S256x1296x64, .i32⟩
  | .hbm, ⟨7, _⟩ => ⟨S256x1296x64, .i32⟩
  | .hbm, ⟨8, _⟩ => ⟨S256x1296x64, .i1⟩
  | .hbm, ⟨9, _⟩ => ⟨S256x1296x64, .f32⟩
  | .hbm, ⟨10, _⟩ => ⟨S_, .f32⟩
  | .hbm, ⟨11, _⟩ => ⟨S256x64, .f32⟩
  | .hbm, ⟨12, _⟩ => ⟨S256x128x64, .f32⟩
  | .hbm, ⟨13, _⟩ => ⟨S256x1x64, .f32⟩
  | .hbm, ⟨14, _⟩ => ⟨S_, .f32⟩
  | .hbm, ⟨15, _⟩ => ⟨S256x1x64, .f32⟩
  | .hbm, ⟨16, _⟩ => ⟨S256x1x64, .f32⟩
  | .hbm, ⟨17, _⟩ => ⟨S256x128x64, .f32⟩
  | .hbm, ⟨18, _⟩ => ⟨S256x128x64, .f32⟩
  | .hbm, ⟨19, _⟩ => ⟨S256x1x1296, .i32⟩
  | .hbm, ⟨20, _⟩ => ⟨S256x128x1296, .i32⟩
  | .hbm, ⟨21, _⟩ => ⟨S_, .i32⟩
  | .hbm, ⟨22, _⟩ => ⟨S256x128x1296, .i32⟩
  | .hbm, ⟨23, _⟩ => ⟨S256x128x1296, .i1⟩
  | .hbm, ⟨24, _⟩ => ⟨S_, .i32⟩
  | .hbm, ⟨25, _⟩ => ⟨S256x128x1296, .i32⟩
  | .hbm, ⟨26, _⟩ => ⟨S256x128x1296, .i32⟩
  | .hbm, ⟨27, _⟩ => ⟨S256x128x1296, .i32⟩
  | .hbm, ⟨28, _⟩ => ⟨S256x128x1296x1, .i32⟩
  | .hbm, ⟨29, _⟩ => ⟨S1, .i32⟩
  | .hbm, ⟨30, _⟩ => ⟨S_, .i32⟩
  | .hbm, ⟨31, _⟩ => ⟨S256x128x1296x1, .i32⟩
  | .hbm, ⟨32, _⟩ => ⟨S256x128x1296x1, .i1⟩
  | .hbm, ⟨33, _⟩ => ⟨S1x1x1x1, .i32⟩
  | .hbm, ⟨34, _⟩ => ⟨S256x128x1296x1, .i32⟩
  | .hbm, ⟨35, _⟩ => ⟨S256x128x1296x1, .i1⟩
  | .hbm, ⟨36, _⟩ => ⟨S256x128x1296x1, .i1⟩
  | .hbm, ⟨37, _⟩ => ⟨S_, .i1⟩
  | .hbm, ⟨38, _⟩ => ⟨S256x128x1296, .i1⟩
  | .hbm, ⟨39, _⟩ => ⟨S256x128x1296, .f32⟩
  | .hbm, ⟨40, _⟩ => ⟨S_, .f32⟩
  | .hbm, ⟨41, _⟩ => ⟨S256x128x1296, .f32⟩
  | .hbm, ⟨42, _⟩ => ⟨S256x128x1296, .f32⟩
  | .hbm, ⟨43, _⟩ => ⟨S256x128x1296, .f32⟩
  | .hbm, ⟨44, _⟩ => ⟨S256x128x1296, .f32⟩
  | .hbm, ⟨45, _⟩ => ⟨S_, .f32⟩
  | .hbm, ⟨46, _⟩ => ⟨S256x1296, .f32⟩
  | .hbm, ⟨47, _⟩ => ⟨S_, .f32⟩
  | .hbm, ⟨48, _⟩ => ⟨S256x1296, .f32⟩
  | .hbm, ⟨49, _⟩ => ⟨S256x1296, .f32⟩
  | .hbm, ⟨50, _⟩ => ⟨S256x1296x1, .f32⟩
  | _, _ => ⟨S256x128x36x36, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_call0_v0 : Ref sig .tc := ⟨.hbm, 4, rfl⟩
abbrev main_call0_v1 : Ref sig .tc := ⟨.hbm, 5, rfl⟩
abbrev main_call0_v2 : Ref sig .tc := ⟨.hbm, 6, rfl⟩
abbrev main_call0_v3 : Ref sig .tc := ⟨.hbm, 7, rfl⟩
abbrev main_call0_v4 : Ref sig .tc := ⟨.hbm, 8, rfl⟩
abbrev main_v2 : Ref sig .tc := ⟨.hbm, 9, rfl⟩
abbrev main_cst : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_cst_0 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_call1_c : Ref sig .tc := ⟨.hbm, 21, rfl⟩
abbrev main_call1_v0 : Ref sig .tc := ⟨.hbm, 22, rfl⟩
abbrev main_call1_v1 : Ref sig .tc := ⟨.hbm, 23, rfl⟩
abbrev main_call1_c_0 : Ref sig .tc := ⟨.hbm, 24, rfl⟩
abbrev main_call1_v2 : Ref sig .tc := ⟨.hbm, 25, rfl⟩
abbrev main_call1_v3 : Ref sig .tc := ⟨.hbm, 26, rfl⟩
abbrev main_call1_v4 : Ref sig .tc := ⟨.hbm, 27, rfl⟩
abbrev main_call1_v5 : Ref sig .tc := ⟨.hbm, 28, rfl⟩
abbrev main_call1_c_1 : Ref sig .tc := ⟨.hbm, 29, rfl⟩
abbrev main_call1_c_2 : Ref sig .tc := ⟨.hbm, 30, rfl⟩
abbrev main_call1_v6 : Ref sig .tc := ⟨.hbm, 31, rfl⟩
abbrev main_call1_v7 : Ref sig .tc := ⟨.hbm, 32, rfl⟩
abbrev main_call1_v8 : Ref sig .tc := ⟨.hbm, 33, rfl⟩
abbrev main_call1_v9 : Ref sig .tc := ⟨.hbm, 34, rfl⟩
abbrev main_call1_v10 : Ref sig .tc := ⟨.hbm, 35, rfl⟩
abbrev main_call1_v11 : Ref sig .tc := ⟨.hbm, 36, rfl⟩
abbrev main_call1_c_3 : Ref sig .tc := ⟨.hbm, 37, rfl⟩
abbrev main_call1_v12 : Ref sig .tc := ⟨.hbm, 38, rfl⟩
abbrev main_call1_v13 : Ref sig .tc := ⟨.hbm, 39, rfl⟩
abbrev main_call1_cst : Ref sig .tc := ⟨.hbm, 40, rfl⟩
abbrev main_call1_v14 : Ref sig .tc := ⟨.hbm, 41, rfl⟩
abbrev main_v12 : Ref sig .tc := ⟨.hbm, 42, rfl⟩
abbrev main_v13 : Ref sig .tc := ⟨.hbm, 43, rfl⟩
abbrev main_v14 : Ref sig .tc := ⟨.hbm, 44, rfl⟩
abbrev main_cst_1 : Ref sig .tc := ⟨.hbm, 45, rfl⟩
abbrev main_v15 : Ref sig .tc := ⟨.hbm, 46, rfl⟩
abbrev main_cst_2 : Ref sig .tc := ⟨.hbm, 47, rfl⟩
abbrev main_v16 : Ref sig .tc := ⟨.hbm, 48, rfl⟩
abbrev main_v17 : Ref sig .tc := ⟨.hbm, 49, rfl⟩
abbrev main_v18 : Ref sig .tc := ⟨.hbm, 50, rfl⟩

abbrev nD : Nat := 1
abbrev τ : Topo := Topo.v7x

variable {F : FTy → Type} [FloatOps F]

class Facts₀ : Prop where
  shapeCasts_S256x128x36x36_S256x128x1296 : S256x128x36x36.ShapeCasts S256x128x1296
  shapeCasts_S256x36x36_S256x1296 : S256x36x36.ShapeCasts S256x1296
  bcast_S256x1296_S256x1296x1_0_1 : S256x1296.BroadcastsInDim S256x1296x1 (![0, 1] : Fin 2 → Fin S256x1296x1.rank)
  bcast_S256x1296x1_S256x1296x64_0_1_2 : S256x1296x1.BroadcastsInDim S256x1296x64 (![0, 1, 2] : Fin 3 → Fin S256x1296x64.rank)
  bcast_S1x1x64_S256x1296x64_0_1_2 : S1x1x64.BroadcastsInDim S256x1296x64 (![0, 1, 2] : Fin 3 → Fin S256x1296x64.rank)
  reducesTo_S256x1296x64_S256x64_d1 : S256x1296x64.ReducesTo [1] S256x64
  h_S_ : 0 < S_.numel
  bcast_S256x64_S256x1x64_0_2 : S256x64.BroadcastsInDim S256x1x64 (![0, 2] : Fin 2 → Fin S256x1x64.rank)
  bcast_S_S256x1x64 : S_.BroadcastsInDim S256x1x64 (![] : Fin 0 → Fin S256x1x64.rank)
  bcast_S256x1x64_S256x128x64_0_1_2 : S256x1x64.BroadcastsInDim S256x128x64 (![0, 1, 2] : Fin 3 → Fin S256x128x64.rank)
  bcast_S256x1296_S256x1x1296_0_2 : S256x1296.BroadcastsInDim S256x1x1296 (![0, 2] : Fin 2 → Fin S256x1x1296.rank)
  bcast_S256x1x1296_S256x128x1296_0_1_2 : S256x1x1296.BroadcastsInDim S256x128x1296 (![0, 1, 2] : Fin 3 → Fin S256x128x1296.rank)
  bcast_S_S256x128x1296 : S_.BroadcastsInDim S256x128x1296 (![] : Fin 0 → Fin S256x128x1296.rank)
  shapeCasts_S256x128x1296_S256x128x1296x1 : S256x128x1296.ShapeCasts S256x128x1296x1
  bcast_S_S256x128x1296x1 : S_.BroadcastsInDim S256x128x1296x1 (![] : Fin 0 → Fin S256x128x1296x1.rank)
  bcast_S1_S1x1x1x1_3 : S1.BroadcastsInDim S1x1x1x1 (![3] : Fin 1 → Fin S1x1x1x1.rank)
  bcast_S1x1x1x1_S256x128x1296x1_0_1_2_3 : S1x1x1x1.BroadcastsInDim S256x128x1296x1 (![0, 1, 2, 3] : Fin 4 → Fin S256x128x1296x1.rank)
  reducesTo_S256x128x1296x1_S256x128x1296_d3 : S256x128x1296x1.ReducesTo [3] S256x128x1296
  reducesTo_S256x128x1296_S256x1296_d1 : S256x128x1296.ReducesTo [1] S256x1296
  bcast_S_S256x1296 : S_.BroadcastsInDim S256x1296 (![] : Fin 0 → Fin S256x1296.rank)
  dot_S256x128x1296_S256x1296x64_S256x128x64_2_1_1_2_0_0_wf : DotDims.WF S256x128x1296 S256x1296x64 S256x128x64 [2] [1] [1] [2] [0] [0]
  gather_S256x128x64_S256x128x1296x1_S256x128x1296_n_2_01_01_2_3_111_wf : GatherDims.WF S256x128x64 S256x128x1296x1 S256x128x1296 [] [2] [0, 1] [2] [0, 1] 3 ![1, 1, 1]

variable [Facts₀]

def dot_S256x128x1296_S256x1296x64_S256x128x64_2_1_1_2_0_0 : DotDims S256x128x1296 S256x1296x64 S256x128x64 where
  lhsContracting := [2]
  rhsContracting := [1]
  lhsNonContracting := [1]
  rhsNonContracting := [2]
  lhsBatch := [0]
  rhsBatch := [0]
  wf := dot_S256x128x1296_S256x1296x64_S256x128x64_2_1_1_2_0_0_wf
def gather_S256x128x64_S256x128x1296x1_S256x128x1296_n_2_01_01_2_3_111 : GatherDims S256x128x64 S256x128x1296x1 S256x128x1296 where
  offsetDims := []
  collapsedSliceDims := [2]
  operandBatchingDims := [0, 1]
  startIndicesBatchingDims := [0, 1]
  startIndexMap := [2]
  indexVectorDim := 3
  sliceSizes := ![1, 1, 1]
  wf := gather_S256x128x64_S256x128x1296x1_S256x128x1296_n_2_01_01_2_3_111_wf

class Facts : Prop extends Facts₀ where

variable [Facts]
-- ==== Proof.Spec.lean ====
/-
  Squared distance of each pixel's embedding to the mean embedding of the pixel's class, per image.

  One image is a matrix `X : channel × pixel` (128 × 1296) of extended reals and a labelling `K : pixel → word`.
  For a class `c < 64` write `hot c n` for the indicator of "pixel n is labelled c", `count c` for the number of such
  pixels and `μ c d = (∑ n, hot c n · X d n) / (count c + ε)` for the (ε-damped) class mean of channel `d`.

  Two spellings of the distance of pixel `n` to its class mean are stated here, each as the respective program
  computes it, so that each program's value is read off against its own spelling and one algebraic law joins them:
  * the expanded form: `max ((∑ d, X d n²)/128 + ∑ c, [K n = c] · ((∑ d, μ c d²)/128 − (1/64)·∑ d, μ c d · X d n), 0)`;
  * the direct form, for the class `k` of pixel `n`: `(∑ d, (X d n − μ k d)²)/128`.
  The literals are kept as the f32 words both programs print (ε = 0x38D1B717, 128 = 0x43000000, 1/64 = 0x3C800000).
-/
import Idealize.ShloMosaic.PureOps.Ideal
import Idealize.ShloMosaic.Lib.ValueIdx

noncomputable section

namespace Cert.ClassDist

open Idealize.ShloMosaic Idealize.ShloMosaic.ValueIdx

/-- The damping added to a class's pixel count before the division. -/
abbrev eps : EReal := Ideal.ofBits .f32 0x38D1B717#32
/-- The number of channels, as the divisor of a mean over channels. -/
abbrev c128 : EReal := Ideal.ofBits .f32 0x43000000#32
/-- Twice the reciprocal of the number of channels: the weight of the cross term. -/
abbrev c64inv : EReal := Ideal.ofBits .f32 0x3C800000#32

section OneImage

variable (X : Fin 128 → Fin 1296 → EReal) (K : Fin 1296 → BitVec 32)

/-- The indicator of "pixel `n` carries label `c`". -/
def hot (c : Fin 64) (n : Fin 1296) : EReal := if K n = BitVec.ofNat 32 c.val then 1 else 0

/-- How many pixels carry label `c`. -/
def count (c : Fin 64) : EReal := ∑ n : Fin 1296, hot K c n

/-- The damped mean of channel `d` over the pixels of class `c`, the indicator written on the left of each product. -/
def kmean (c : Fin 64) (d : Fin 128) : EReal :=
  Ideal.div (∑ n : Fin 1296, hot K c n * X d n) (count K c + eps)

/-- The same mean with the data written on the left of each product. -/
def rmean (d : Fin 128) (c : Fin 64) : EReal :=
  Ideal.div (∑ n : Fin 1296, X d n * hot K c n) (count K c + eps)

/-- The expanded form of pixel `n`'s distance: mean square of the pixel, plus, selected by the pixel's label, the mean
    square of the class mean minus the weighted cross term; clamped at zero. -/
def kernelVal1 (n : Fin 1296) : EReal :=
  max (Ideal.div (∑ d : Fin 128, X d n * X d n) c128
        + ∑ c : Fin 64, (if K n = BitVec.ofNat 32 c.val then
            Ideal.div (∑ d : Fin 128, kmean X K c d * kmean X K c d) c128
              - c64inv * ∑ d : Fin 128, kmean X K c d * X d n
          else 0)) 0

/-- The direct form: the mean over channels of the squared difference to the mean of class `k`. -/
def refVal1 (n : Fin 1296) (k : Fin 64) : EReal :=
  Ideal.div (∑ d : Fin 128, (X d n - rmean X K d k) * (X d n - rmean X K d k)) c128

end OneImage

/-- Pixel `n` of a 36 × 36 image, row-major: its row and its column. -/
abbrev pixRow (n : Fin 1296) : Fin 36 := ⟨n.val / 36, by have := n.isLt; omega⟩
abbrev pixCol (n : Fin 1296) : Fin 36 := ⟨n.val % 36, by have := n.isLt; omega⟩

/-- Image `b` of the batch as a channel × pixel matrix. -/
def Xrow (x : (⟨4, ![256, 128, 36, 36]⟩ : Shape).Idx → EReal) (b : Fin 256) : Fin 128 → Fin 1296 → EReal :=
  fun d n => x (ix4 b d (pixRow n) (pixCol n))

/-- Image `b`'s labelling by pixel. -/
def Krow (k : (⟨3, ![256, 36, 36]⟩ : Shape).Idx → BitVec 32) (b : Fin 256) : Fin 1296 → BitVec 32 :=
  fun n => k (ix3 b (pixRow n) (pixCol n))

/-- The whole result [256, 1296, 1] in the expanded form. -/
def outK (x : (⟨4, ![256, 128, 36, 36]⟩ : Shape).Idx → EReal) (k : (⟨3, ![256, 36, 36]⟩ : Shape).Idx → BitVec 32) :
    (⟨3, ![256, 1296, 1]⟩ : Shape).Idx → EReal :=
  fun i => kernelVal1 (Xrow x ⟨(i 0).val, (i 0).isLt⟩) (Krow k ⟨(i 0).val, (i 0).isLt⟩) ⟨(i 1).val, (i 1).isLt⟩

theorem outK_apply (x : (⟨4, ![256, 128, 36, 36]⟩ : Shape).Idx → EReal) (k : (⟨3, ![256, 36, 36]⟩ : Shape).Idx → BitVec 32)
    (b : Fin 256) (n : Fin 1296) (z : Fin 1) : outK x k (ix3 b n z) = kernelVal1 (Xrow x b) (Krow k b) n := rfl

end Cert.ClassDist

end
-- ==== Proof.Algebra.lean ====
/-
  The expanded form of a pixel's distance to its class mean equals the direct form.
-/
import proofs.«401519_j68745246540061_3_alg».proof.Proof.Spec

noncomputable section

namespace Cert.ClassDist

open Idealize.ShloMosaic

namespace Alg

/-- The word 0x43000000 denotes the real 128. -/
theorem c128_eq : c128 = ((128 : ℝ) : EReal) := by
  simp [c128, Ideal.ofBits, Ideal.ieee, -EReal.coe_mul]; norm_num

/-- The word 0x3C800000 denotes the real 1/64. -/
theorem c64inv_eq : c64inv = ((1 / 64 : ℝ) : EReal) := by
  simp [c64inv, Ideal.ofBits, Ideal.ieee, -EReal.coe_mul]; norm_num

/-- The word 0x38D1B717 denotes a positive real. -/
theorem eps_pos : ∃ r : ℝ, 0 < r ∧ eps = (r : EReal) := by
  simp [eps, Ideal.ofBits, Ideal.ieee, -EReal.coe_mul]

/-- The coercion of a finite sum of reals is the sum of the coercions. -/
theorem coe_sum {ι : Type*} (s : Finset ι) (f : ι → ℝ) :
    ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

/-- The indicator of "pixel n carries label c", as a real number. -/
def hotR (K : Fin 1296 → BitVec 32) (c : Fin 64) (n : Fin 1296) : ℝ :=
  if K n = BitVec.ofNat 32 c.val then 1 else 0

theorem hot_eq (K : Fin 1296 → BitVec 32) (c : Fin 64) (n : Fin 1296) :
    hot K c n = ((hotR K c n : ℝ) : EReal) := by
  unfold hot hotR
  split_ifs
  · exact EReal.coe_one.symm
  · exact EReal.coe_zero.symm

theorem hotR_nonneg (K : Fin 1296 → BitVec 32) (c : Fin 64) (n : Fin 1296) : 0 ≤ hotR K c n := by
  unfold hotR
  split_ifs
  · exact zero_le_one
  · exact le_refl 0

/-- The number of pixels of class c, as a real number. -/
def countR (K : Fin 1296 → BitVec 32) (c : Fin 64) : ℝ := ∑ n : Fin 1296, hotR K c n

theorem count_eq (K : Fin 1296 → BitVec 32) (c : Fin 64) : count K c = ((countR K c : ℝ) : EReal) := by
  unfold count countR
  rw [coe_sum]
  exact Finset.sum_congr rfl (fun n _ => hot_eq K c n)

theorem countR_nonneg (K : Fin 1296 → BitVec 32) (c : Fin 64) : 0 ≤ countR K c :=
  Finset.sum_nonneg (fun n _ => hotR_nonneg K c n)

/-- The damped class mean of channel d, as a real number; e is the damping. -/
def muR (x : Fin 128 → Fin 1296 → ℝ) (K : Fin 1296 → BitVec 32) (e : ℝ) (c : Fin 64) (d : Fin 128) : ℝ :=
  (∑ n : Fin 1296, hotR K c n * x d n) * (1 / (countR K c + e))

/-- On real data both spellings of the class mean are the coercion of the real class mean: the count is
    non-negative and the damping positive, so the divisor is a nonzero real. -/
theorem kmean_eq (x : Fin 128 → Fin 1296 → ℝ) (K : Fin 1296 → BitVec 32) {e : ℝ} (he0 : 0 < e)
    (he : eps = (e : EReal)) (c : Fin 64) (d : Fin 128) :
    kmean (fun d n => ((x d n : ℝ) : EReal)) K c d = ((muR x K e c d : ℝ) : EReal) := by
  have hne : countR K c + e ≠ 0 := (add_pos_of_nonneg_of_pos (countR_nonneg K c) he0).ne'
  unfold kmean muR
  rw [count_eq, he, ← EReal.coe_add, Ideal.div_coe hne, EReal.coe_mul, coe_sum]
  congr 1
  refine Finset.sum_congr rfl (fun n _ => ?_)
  rw [hot_eq, EReal.coe_mul]

theorem rmean_eq (x : Fin 128 → Fin 1296 → ℝ) (K : Fin 1296 → BitVec 32) {e : ℝ} (he0 : 0 < e)
    (he : eps = (e : EReal)) (d : Fin 128) (c : Fin 64) :
    rmean (fun d n => ((x d n : ℝ) : EReal)) K d c = ((muR x K e c d : ℝ) : EReal) := by
  rw [← kmean_eq x K he0 he c d]
  unfold rmean kmean
  congr 1
  exact Finset.sum_congr rfl (fun n _ => mul_comm _ _)

/-- A sum over the classes of terms selected by "the label of pixel n is c" is the term of that label: distinct
    numbers below 64 are distinct 32-bit words. -/
theorem sum_select (K : Fin 1296 → BitVec 32) (n : Fin 1296) (k : Fin 64) (hk : K n = BitVec.ofNat 32 k.val)
    (T : Fin 64 → EReal) :
    (∑ c : Fin 64, (if K n = BitVec.ofNat 32 c.val then T c else 0)) = T k := by
  rw [Finset.sum_eq_single k]
  · rw [if_pos hk]
  · intro c _ hck
    rw [if_neg]
    intro h
    apply hck
    have h2 : BitVec.ofNat 32 c.val = BitVec.ofNat 32 k.val := h.symm.trans hk
    have h3 := congrArg BitVec.toNat h2
    simp only [BitVec.toNat_ofNat] at h3
    apply Fin.ext
    have hc := c.isLt
    have hk' := k.isLt
    omega
  · intro h
    exact absurd (Finset.mem_univ k) h

/-- The mean over the channels of a product of two real families, divided by the word for 128. -/
theorem div128_sum (a b : Fin 128 → ℝ) :
    Ideal.div (∑ d : Fin 128, ((a d : ℝ) : EReal) * ((b d : ℝ) : EReal)) c128
      = (((∑ d : Fin 128, a d * b d) * (1 / 128) : ℝ) : EReal) := by
  rw [c128_eq, Ideal.div_coe (by norm_num : (128 : ℝ) ≠ 0), EReal.coe_mul, coe_sum]
  congr 1

/-- Over the reals: the mean square of x, plus the mean square of m minus the 1/64-weighted cross term, is the mean of
    the squared differences. -/
theorem real_identity (a m : Fin 128 → ℝ) :
    (∑ d : Fin 128, a d * a d) * (1 / 128)
        + ((∑ d : Fin 128, m d * m d) * (1 / 128) - 1 / 64 * ∑ d : Fin 128, m d * a d)
      = (∑ d : Fin 128, (a d - m d) * (a d - m d)) * (1 / 128) := by
  have h : ∀ d : Fin 128, (a d - m d) * (a d - m d) = a d * a d + m d * m d - 2 * (m d * a d) := fun d => by ring
  simp only [h, Finset.sum_sub_distrib, Finset.sum_add_distrib, ← Finset.mul_sum]
  ring

/-- Over real data the clamped expanded form is the direct form: both are coercions of reals, the two reals agree by
    the identity above, and the direct one is a sum of squares over 128, hence non-negative. -/
theorem expanded_eq_direct (a m : Fin 128 → ℝ) :
    max (Ideal.div (∑ d : Fin 128, ((a d : ℝ) : EReal) * ((a d : ℝ) : EReal)) c128
          + (Ideal.div (∑ d : Fin 128, ((m d : ℝ) : EReal) * ((m d : ℝ) : EReal)) c128
              - c64inv * ∑ d : Fin 128, ((m d : ℝ) : EReal) * ((a d : ℝ) : EReal))) 0
      = Ideal.div (∑ d : Fin 128, (((a d : ℝ) : EReal) - ((m d : ℝ) : EReal))
          * (((a d : ℝ) : EReal) - ((m d : ℝ) : EReal))) c128 := by
  have hR : (∑ d : Fin 128, (((a d : ℝ) : EReal) - ((m d : ℝ) : EReal)) * (((a d : ℝ) : EReal) - ((m d : ℝ) : EReal)))
      = ∑ d : Fin 128, (((a d - m d : ℝ)) : EReal) * (((a d - m d : ℝ)) : EReal) :=
    Finset.sum_congr rfl (fun d _ => by rw [EReal.coe_sub])
  have hC : (∑ d : Fin 128, ((m d : ℝ) : EReal) * ((a d : ℝ) : EReal)) = ((∑ d : Fin 128, m d * a d : ℝ) : EReal) := by
    rw [coe_sum]
    exact Finset.sum_congr rfl (fun d _ => (EReal.coe_mul _ _).symm)
  rw [hR, div128_sum, div128_sum, div128_sum, c64inv_eq, hC, ← EReal.coe_mul, ← EReal.coe_sub, ← EReal.coe_add,
    real_identity]
  exact max_eq_left (EReal.coe_nonneg.mpr
    (mul_nonneg (Finset.sum_nonneg (fun d _ => mul_self_nonneg _)) (by norm_num)))

end Alg

/-- For a finite image, and a pixel `n` whose label is the class `k < 64`, the expanded form of the distance is the
    direct one: `∑ (x − μ)² = ∑ x² − 2 ∑ x μ + ∑ μ²` over the reals, and the value is non-negative, so the clamp at zero
    is the identity. -/
theorem kernelVal1_eq_refVal1 (X : Fin 128 → Fin 1296 → EReal) (K : Fin 1296 → BitVec 32)
    (hX : ∀ d n, ∃ r : ℝ, X d n = (r : EReal)) (n : Fin 1296) (k : Fin 64) (hk : K n = BitVec.ofNat 32 k.val) :
    kernelVal1 X K n = refVal1 X K n k := by
  choose x hx using hX
  obtain rfl : X = fun d n => ((x d n : ℝ) : EReal) := funext fun d => funext fun n => hx d n
  obtain ⟨e, he0, he⟩ := Alg.eps_pos
  unfold kernelVal1 refVal1
  rw [Alg.sum_select K n k hk]
  simp only [Alg.kmean_eq x K he0 he, Alg.rmean_eq x K he0 he]
  exact Alg.expanded_eq_direct (fun d => x d n) (fun d => Alg.muR x K e k d)

end Cert.ClassDist

end
-- ==== Proof.PreDecode.lean ====
/-
  What the precondition says of the two argument arrays: every embedding entry is a real number, and every label,
  read as an unsigned word, is below 64 (it is a signed word that is at least 0 and less than 64).
-/
import proofs.«401519_j68745246540061_3_alg».proof.Pre_finite_inputs
import Idealize.ShloMosaic.PureOps.Ideal
import Idealize.ShloMosaic.Lib.ReduceAll

noncomputable section

namespace Cert.PreDecode

open Idealize.ShloMosaic

/-- The word 0x7F800000 denotes +∞. -/
theorem ofBits_inf : Ideal.ofBits .f32 0x7F800000#32 = (⊤ : EReal) := by
  simp [Ideal.ofBits, Ideal.ieee]

/-- An extended real whose absolute value (the larger of it and its negation) compares below the word for +∞ is a
    real number: at either infinity the absolute value is +∞. -/
theorem real_of_abs_lt_inf (v : EReal)
    (h : Ideal.cmp .olt (max v (-v)) (Ideal.ofBits .f32 0x7F800000#32) = 1#1) : ∃ r : ℝ, v = (r : EReal) := by
  rw [ofBits_inf] at h
  induction v using EReal.rec with
  | bot => exact absurd h (by simp [Ideal.cmp])
  | top => exact absurd h (by simp [Ideal.cmp])
  | coe r => exact ⟨r, rfl⟩

/-- A 32-bit word that, read signed, is at least 0 and less than 64 is, read unsigned, less than 64: a word with its
    top bit set reads negative. -/
theorem toNat_lt_64 (a : BitVec 32) (h1 : IntOp.cmpi .sge a 0#32 = 1#1) (h2 : IntOp.cmpi .slt a 64#32 = 1#1) :
    a.toNat < 64 := by
  have e1 : (0#32 : BitVec 32).sle a = true := by
    unfold IntOp.cmpi at h1
    revert h1
    cases (0#32 : BitVec 32).sle a <;> simp
  have e2 : a.slt 64#32 = true := by
    unfold IntOp.cmpi at h2
    revert h2
    cases a.slt 64#32 <;> simp
  simp only [BitVec.sle, BitVec.slt, decide_eq_true_eq] at e1 e2
  have z : (0#32 : BitVec 32).toInt = 0 := by decide
  have s : (64#32 : BitVec 32).toInt = 64 := by decide
  rw [z] at e1
  rw [s] at e2
  rw [BitVec.toInt_eq_toNat_cond] at e1 e2
  have := a.isLt
  split at e1 <;> omega

/-- The printed precondition holds of `x` and `k` exactly when: `|x i| < +∞` everywhere, and `0 ≤ k i < 64` (signed)
    everywhere. Consequences used by the value proof: each `x i` is a real; each `k i` is a word below 64. -/
theorem decode [Cert.Pre_finite_inputs.Facts] (x : FVec Ideal Cert.Pre_finite_inputs.S256x128x36x36 .f32) (k : IVec Cert.Pre_finite_inputs.S256x36x36 32)
    (h : Cert.Pre_finite_inputs.fn (F := Ideal) x k = fun _ => 1#1) :
    (∀ i, ∃ r : ℝ, x i = (r : EReal)) ∧ (∀ i, (k i).toNat < 64) := by
  haveI : Subsingleton Cert.Pre_finite_inputs.S_.Idx := ⟨fun a b => funext fun d => d.elim0⟩
  have h0 := congrFun h (fun d => d.elim0 : Cert.Pre_finite_inputs.S_.Idx)
  dsimp only [Cert.Pre_finite_inputs.fn] at h0
  obtain ⟨h12, h3⟩ := IntOp.andi_eq_one.1 h0
  obtain ⟨h1, h2⟩ := IntOp.andi_eq_one.1 h12
  refine ⟨fun i => ?_, fun i => ?_⟩
  · exact real_of_abs_lt_inf (x i) (Host.reduce_andi_all _ _ _ _ _ h1 i)
  · exact toNat_lt_64 (k i) (Host.reduce_andi_all _ _ _ _ _ h2 i) (Host.reduce_andi_all _ _ _ _ _ h3 i)

end Cert.PreDecode

end
-- ==== Proof.KMat.lean ====
/-
  The kernel body's contractions and lane sums on the extended reals, read at an index: a product of two blocks over a
  shared axis (one image at a time) is the plain sum of products over that axis, and a sum over one axis of a block is
  the plain sum of its entries along that axis. The accumulators are the zero word, which adds nothing.
-/
import proofs.«401519_j68745246540061_3_alg».proof.Proof.Gen.KernelIdeal.Frame
import Idealize.ShloMosaic.Lib.ValueIdx
import Idealize.ShloMosaic.PureOps.Ideal.Laws

noncomputable section

namespace Cert.KernelIdeal.KMat

open Cert.KernelIdeal Cert.KernelIdeal.Gen Idealize.ShloMosaic Idealize.ShloMosaic.TcCoe Idealize.ShloMosaic.ValueIdx

/-! ## The first product's operand indices, axis by axis -/

/-- On the left operand's image axis the coordinate is the output's image. -/
theorem lhs_pixels_0 (i : S8x64x128.Idx) (q : dot_S8x64x1296_S8x128x1296_S8x64x128_2_2_1_1_0_0.contr.Idx) :
    (dot_S8x64x1296_S8x128x1296_S8x64x128_2_2_1_1_0_0.lhsIdx i q 0).val = (i 0).val := by
  unfold DotDims.lhsIdx
  rw [dif_pos (show (0 : Fin S8x64x1296.rank) ∈ dot_S8x64x1296_S8x128x1296_S8x64x128_2_2_1_1_0_0.lhsBatch by decide)]
  rfl
/-- On the left operand's kept axis the coordinate is the output's coordinate on the matching axis. -/
theorem lhs_pixels_1 (i : S8x64x128.Idx) (q : dot_S8x64x1296_S8x128x1296_S8x64x128_2_2_1_1_0_0.contr.Idx) :
    (dot_S8x64x1296_S8x128x1296_S8x64x128_2_2_1_1_0_0.lhsIdx i q 1).val = (i 1).val := by
  unfold DotDims.lhsIdx
  rw [dif_neg (show ¬(1 : Fin S8x64x1296.rank) ∈ dot_S8x64x1296_S8x128x1296_S8x64x128_2_2_1_1_0_0.lhsBatch by decide), dif_pos (show (1 : Fin S8x64x1296.rank) ∈ dot_S8x64x1296_S8x128x1296_S8x64x128_2_2_1_1_0_0.lhsNonContracting by decide)]
  rfl
/-- On the left operand's contracted axis the coordinate is the contraction position's one coordinate. -/
theorem lhs_pixels_2 (i : S8x64x128.Idx) (q : dot_S8x64x1296_S8x128x1296_S8x64x128_2_2_1_1_0_0.contr.Idx) :
    (dot_S8x64x1296_S8x128x1296_S8x64x128_2_2_1_1_0_0.lhsIdx i q 2).val = (q ⟨0, by decide⟩).val :=
  dot_S8x64x1296_S8x128x1296_S8x64x128_2_2_1_1_0_0.lhsIdx_val_of_single rfl i q
/-- On the right operand's image axis the coordinate is the output's image. -/
theorem rhs_pixels_0 (i : S8x64x128.Idx) (q : dot_S8x64x1296_S8x128x1296_S8x64x128_2_2_1_1_0_0.contr.Idx) :
    (dot_S8x64x1296_S8x128x1296_S8x64x128_2_2_1_1_0_0.rhsIdx i q 0).val = (i 0).val := by
  unfold DotDims.rhsIdx
  rw [dif_pos (show (0 : Fin S8x128x1296.rank) ∈ dot_S8x64x1296_S8x128x1296_S8x64x128_2_2_1_1_0_0.rhsBatch by decide)]
  rfl
/-- On the right operand's kept axis the coordinate is the output's coordinate on the matching axis. -/
theorem rhs_pixels_1 (i : S8x64x128.Idx) (q : dot_S8x64x1296_S8x128x1296_S8x64x128_2_2_1_1_0_0.contr.Idx) :
    (dot_S8x64x1296_S8x128x1296_S8x64x128_2_2_1_1_0_0.rhsIdx i q 1).val = (i 2).val := by
  unfold DotDims.rhsIdx
  rw [dif_neg (show ¬(1 : Fin S8x128x1296.rank) ∈ dot_S8x64x1296_S8x128x1296_S8x64x128_2_2_1_1_0_0.rhsBatch by decide), dif_pos (show (1 : Fin S8x128x1296.rank) ∈ dot_S8x64x1296_S8x128x1296_S8x64x128_2_2_1_1_0_0.rhsNonContracting by decide)]
  rfl
/-- On the right operand's contracted axis the coordinate is the contraction position's one coordinate. -/
theorem rhs_pixels_2 (i : S8x64x128.Idx) (q : dot_S8x64x1296_S8x128x1296_S8x64x128_2_2_1_1_0_0.contr.Idx) :
    (dot_S8x64x1296_S8x128x1296_S8x64x128_2_2_1_1_0_0.rhsIdx i q 2).val = (q ⟨0, by decide⟩).val :=
  dot_S8x64x1296_S8x128x1296_S8x64x128_2_2_1_1_0_0.rhsIdx_val_of_single rfl i q

/-! ## The second product's operand indices, axis by axis -/

/-- On the left operand's image axis the coordinate is the output's image. -/
theorem lhs_channels_0 (i : S8x64x1296.Idx) (q : dot_S8x64x128_S8x128x1296_S8x64x1296_2_1_1_2_0_0.contr.Idx) :
    (dot_S8x64x128_S8x128x1296_S8x64x1296_2_1_1_2_0_0.lhsIdx i q 0).val = (i 0).val := by
  unfold DotDims.lhsIdx
  rw [dif_pos (show (0 : Fin S8x64x128.rank) ∈ dot_S8x64x128_S8x128x1296_S8x64x1296_2_1_1_2_0_0.lhsBatch by decide)]
  rfl
/-- On the left operand's kept axis the coordinate is the output's coordinate on the matching axis. -/
theorem lhs_channels_1 (i : S8x64x1296.Idx) (q : dot_S8x64x128_S8x128x1296_S8x64x1296_2_1_1_2_0_0.contr.Idx) :
    (dot_S8x64x128_S8x128x1296_S8x64x1296_2_1_1_2_0_0.lhsIdx i q 1).val = (i 1).val := by
  unfold DotDims.lhsIdx
  rw [dif_neg (show ¬(1 : Fin S8x64x128.rank) ∈ dot_S8x64x128_S8x128x1296_S8x64x1296_2_1_1_2_0_0.lhsBatch by decide), dif_pos (show (1 : Fin S8x64x128.rank) ∈ dot_S8x64x128_S8x128x1296_S8x64x1296_2_1_1_2_0_0.lhsNonContracting by decide)]
  rfl
/-- On the left operand's contracted axis the coordinate is the contraction position's one coordinate. -/
theorem lhs_channels_2 (i : S8x64x1296.Idx) (q : dot_S8x64x128_S8x128x1296_S8x64x1296_2_1_1_2_0_0.contr.Idx) :
    (dot_S8x64x128_S8x128x1296_S8x64x1296_2_1_1_2_0_0.lhsIdx i q 2).val = (q ⟨0, by decide⟩).val :=
  dot_S8x64x128_S8x128x1296_S8x64x1296_2_1_1_2_0_0.lhsIdx_val_of_single rfl i q
/-- On the right operand's image axis the coordinate is the output's image. -/
theorem rhs_channels_0 (i : S8x64x1296.Idx) (q : dot_S8x64x128_S8x128x1296_S8x64x1296_2_1_1_2_0_0.contr.Idx) :
    (dot_S8x64x128_S8x128x1296_S8x64x1296_2_1_1_2_0_0.rhsIdx i q 0).val = (i 0).val := by
  unfold DotDims.rhsIdx
  rw [dif_pos (show (0 : Fin S8x128x1296.rank) ∈ dot_S8x64x128_S8x128x1296_S8x64x1296_2_1_1_2_0_0.rhsBatch by decide)]
  rfl
/-- On the right operand's contracted axis the coordinate is the contraction position's one coordinate. -/
theorem rhs_channels_1 (i : S8x64x1296.Idx) (q : dot_S8x64x128_S8x128x1296_S8x64x1296_2_1_1_2_0_0.contr.Idx) :
    (dot_S8x64x128_S8x128x1296_S8x64x1296_2_1_1_2_0_0.rhsIdx i q 1).val = (q ⟨0, by decide⟩).val :=
  dot_S8x64x128_S8x128x1296_S8x64x1296_2_1_1_2_0_0.rhsIdx_val_of_single rfl i q
/-- On the right operand's kept axis the coordinate is the output's coordinate on the matching axis. -/
theorem rhs_channels_2 (i : S8x64x1296.Idx) (q : dot_S8x64x128_S8x128x1296_S8x64x1296_2_1_1_2_0_0.contr.Idx) :
    (dot_S8x64x128_S8x128x1296_S8x64x1296_2_1_1_2_0_0.rhsIdx i q 2).val = (i 2).val := by
  unfold DotDims.rhsIdx
  rw [dif_neg (show ¬(2 : Fin S8x128x1296.rank) ∈ dot_S8x64x128_S8x128x1296_S8x64x1296_2_1_1_2_0_0.rhsBatch by decide), dif_pos (show (2 : Fin S8x128x1296.rank) ∈ dot_S8x64x128_S8x128x1296_S8x64x1296_2_1_1_2_0_0.rhsNonContracting by decide)]
  rfl

/-! ## The two products at an index -/

/-- Image by image, the class × pixel block times the channel × pixel block, contracted over the pixels. -/
theorem matmul_pixels_at (l : FVec Ideal S8x64x1296 .bf16) (r : FVec Ideal S8x128x1296 .bf16) (p : Fin 8) (c : Fin 64) (d : Fin 128) :
    matmul (F := Ideal) dot_S8x64x1296_S8x128x1296_S8x64x128_2_2_1_1_0_0 none l r (constant (F := Ideal) S8x64x128 .f32 0x00000000#32) (ix3 p c d)
      = ∑ n : Fin 1296, l (ix3 p c n) * r (ix3 p d n) := by
  simp only [matmul]
  rw [Ideal.matmul_constant_zero_apply, ← Equiv.sum_comp (contrEquiv1 dot_S8x64x1296_S8x128x1296_S8x64x128_2_2_1_1_0_0 1296 rfl rfl).symm]
  refine Finset.sum_congr rfl fun k _ => ?_
  have hk := contrEquiv1_symm_val dot_S8x64x1296_S8x128x1296_S8x64x128_2_2_1_1_0_0 1296 rfl rfl k
  have el : dot_S8x64x1296_S8x128x1296_S8x64x128_2_2_1_1_0_0.lhsIdx (ix3 p c d) ((contrEquiv1 dot_S8x64x1296_S8x128x1296_S8x64x128_2_2_1_1_0_0 1296 rfl rfl).symm k) = ix3 p c k := funext fun a => Fin.ext (by
    match a with
    | ⟨0, _⟩ => exact lhs_pixels_0 _ _
    | ⟨1, _⟩ => exact lhs_pixels_1 _ _
    | ⟨2, _⟩ => exact (lhs_pixels_2 _ _).trans hk)
  have er : dot_S8x64x1296_S8x128x1296_S8x64x128_2_2_1_1_0_0.rhsIdx (ix3 p c d) ((contrEquiv1 dot_S8x64x1296_S8x128x1296_S8x64x128_2_2_1_1_0_0 1296 rfl rfl).symm k) = ix3 p d k := funext fun a => Fin.ext (by
    match a with
    | ⟨0, _⟩ => exact rhs_pixels_0 _ _
    | ⟨1, _⟩ => exact rhs_pixels_1 _ _
    | ⟨2, _⟩ => exact (rhs_pixels_2 _ _).trans hk)
  rw [el, er]

/-- Image by image, the class × channel block times the channel × pixel block, contracted over the channels. -/
theorem matmul_channels_at (l : FVec Ideal S8x64x128 .bf16) (r : FVec Ideal S8x128x1296 .bf16) (p : Fin 8) (c : Fin 64) (n : Fin 1296) :
    matmul (F := Ideal) dot_S8x64x128_S8x128x1296_S8x64x1296_2_1_1_2_0_0 none l r (constant (F := Ideal) S8x64x1296 .f32 0x00000000#32) (ix3 p c n)
      = ∑ d : Fin 128, l (ix3 p c d) * r (ix3 p d n) := by
  simp only [matmul]
  rw [Ideal.matmul_constant_zero_apply, ← Equiv.sum_comp (contrEquiv1 dot_S8x64x128_S8x128x1296_S8x64x1296_2_1_1_2_0_0 128 rfl rfl).symm]
  refine Finset.sum_congr rfl fun k _ => ?_
  have hk := contrEquiv1_symm_val dot_S8x64x128_S8x128x1296_S8x64x1296_2_1_1_2_0_0 128 rfl rfl k
  have el : dot_S8x64x128_S8x128x1296_S8x64x1296_2_1_1_2_0_0.lhsIdx (ix3 p c n) ((contrEquiv1 dot_S8x64x128_S8x128x1296_S8x64x1296_2_1_1_2_0_0 128 rfl rfl).symm k) = ix3 p c k := funext fun a => Fin.ext (by
    match a with
    | ⟨0, _⟩ => exact lhs_channels_0 _ _
    | ⟨1, _⟩ => exact lhs_channels_1 _ _
    | ⟨2, _⟩ => exact (lhs_channels_2 _ _).trans hk)
  have er : dot_S8x64x128_S8x128x1296_S8x64x1296_2_1_1_2_0_0.rhsIdx (ix3 p c n) ((contrEquiv1 dot_S8x64x128_S8x128x1296_S8x64x1296_2_1_1_2_0_0 128 rfl rfl).symm k) = ix3 p k n := funext fun a => Fin.ext (by
    match a with
    | ⟨0, _⟩ => exact rhs_channels_0 _ _
    | ⟨1, _⟩ => exact (rhs_channels_1 _ _).trans hk
    | ⟨2, _⟩ => exact rhs_channels_2 _ _)
  rw [el, er]

/-! ## The four lane sums at an index -/

/-- The sum over the pixels of an image × class × pixel block. -/
theorem sum_pixels_at (v : FVec Ideal S8x64x1296 .f32) (p : Fin 8) (c : Fin 64) :
    multiReduction (F := Ideal) .add [2] S8x64 v 0x00000000#32 reduces_S8x64x1296_S8x64 (.inl rfl) rfl (ix2 p c) = ∑ n : Fin 1296, v (ix3 p c n) := by
  refine (Ideal.multiReduction_add_single v 0x00000000#32 reduces_S8x64x1296_S8x64 (.inl rfl) rfl (ix2 p c)).trans ?_
  refine Finset.sum_congr rfl fun k _ => ?_
  exact congrArg v (funext fun a => Fin.ext (by match a with | ⟨0, _⟩ => rfl | ⟨1, _⟩ => rfl | ⟨2, _⟩ => rfl))

/-- The sum over the channels of an image × class × channel block. -/
theorem sum_channels_at (v : FVec Ideal S8x64x128 .f32) (p : Fin 8) (c : Fin 64) :
    multiReduction (F := Ideal) .add [2] S8x64 v 0x00000000#32 reduces_S8x64x128_S8x64 (.inl rfl) rfl (ix2 p c) = ∑ d : Fin 128, v (ix3 p c d) := by
  refine (Ideal.multiReduction_add_single v 0x00000000#32 reduces_S8x64x128_S8x64 (.inl rfl) rfl (ix2 p c)).trans ?_
  refine Finset.sum_congr rfl fun k _ => ?_
  exact congrArg v (funext fun a => Fin.ext (by match a with | ⟨0, _⟩ => rfl | ⟨1, _⟩ => rfl | ⟨2, _⟩ => rfl))

/-- The sum over the classes of an image × class × pixel block. -/
theorem sum_classes_at (v : FVec Ideal S8x64x1296 .f32) (p : Fin 8) (n : Fin 1296) :
    multiReduction (F := Ideal) .add [1] S8x1296 v 0x00000000#32 reduces_S8x64x1296_S8x1296 (.inl rfl) rfl (ix2 p n) = ∑ c : Fin 64, v (ix3 p c n) := by
  refine (Ideal.multiReduction_add_single v 0x00000000#32 reduces_S8x64x1296_S8x1296 (.inl rfl) rfl (ix2 p n)).trans ?_
  refine Finset.sum_congr rfl fun k _ => ?_
  exact congrArg v (funext fun a => Fin.ext (by match a with | ⟨0, _⟩ => rfl | ⟨1, _⟩ => rfl | ⟨2, _⟩ => rfl))

/-- The sum over the channels of an image × channel × pixel block. -/
theorem sum_chan_pix_at (v : FVec Ideal S8x128x1296 .f32) (p : Fin 8) (n : Fin 1296) :
    multiReduction (F := Ideal) .add [1] S8x1296 v 0x00000000#32 reduces_S8x128x1296_S8x1296 (.inl rfl) rfl (ix2 p n) = ∑ d : Fin 128, v (ix3 p d n) := by
  refine (Ideal.multiReduction_add_single v 0x00000000#32 reduces_S8x128x1296_S8x1296 (.inl rfl) rfl (ix2 p n)).trans ?_
  refine Finset.sum_congr rfl fun k _ => ?_
  exact congrArg v (funext fun a => Fin.ext (by match a with | ⟨0, _⟩ => rfl | ⟨1, _⟩ => rfl | ⟨2, _⟩ => rfl))

end Cert.KernelIdeal.KMat

end
-- ==== Proof.KBlock.lean ====
/-
  What the kernel body leaves in its output block, at an index: entry (p, 0, q) is the expanded form of pixel q's
  distance to its class mean, for row p of the input blocks.

  The body works on eight images at a time and never mixes them: every contraction and every lane sum runs inside one
  image. So fix the image `p`, write `X d n = x0 (p, d, n)` for its embeddings and `K n = x1 (p, 0, n)` for its labels,
  and follow the body's values in the order it computes them: the bit "K n = c", the indicator (that bit as 0 or 1),
  the counts (its sums over the pixels), the class sums and, divided by the damped counts, the class means; the
  products of the means with the embeddings; the mean squares of the means; the class's term, kept where the pixel
  carries the label and zero elsewhere; its sum over the classes; and at last the mean square of the pixel added and
  the clamp at zero. Each value, read at an index of image `p`, is the specification's quantity of `X` and `K` term
  for term, because the specification's expanded form was written in the body's own order.
-/
import proofs.«401519_j68745246540061_3_alg».proof.Proof.Gen.KernelIdeal.Frame
import proofs.«401519_j68745246540061_3_alg».proof.Proof.Spec
import proofs.«401519_j68745246540061_3_alg».proof.Proof.KMat
import Idealize.ShloMosaic.Lib.Pipeline.Value
import Idealize.ShloMosaic.Lib.StableHlo.Predicate

noncomputable section

namespace Cert.KernelIdeal.KBlock

open Cert.KernelIdeal Cert.KernelIdeal.Gen Idealize.ShloMosaic Idealize.ShloMosaic.TcCoe Idealize.ShloMosaic.ValueIdx Cert.ClassDist

/-! ## Changes of layout read at an index

A unit axis put in or taken out in the middle or at the end of a shape keeps the row-major position, and a broadcast
along unit axes reads the operand at coordinate 0 there. -/

section Layout
variable {α : Type}

/-- An `[a, 1, b]` array cast to `[a, b]` reads, at `(i, j)`, the operand at `(i, 0, j)`. -/
theorem cast_a1b_ab {a b : ℕ} (x : (⟨3, ![a, 1, b]⟩ : Shape).Idx → α)
    (h : (⟨3, ![a, 1, b]⟩ : Shape).ShapeCasts ⟨2, ![a, b]⟩) (i : Fin a) (j : Fin b) :
    shapeCast ⟨2, ![a, b]⟩ x h (ix2 i j) = x (ix3 i (0 : Fin 1) j) :=
  shapeCast_apply x h _ _ (by
    rw [Shape.rowMajor_val_three, Shape.rowMajor_val_two]
    show (i.val * 1 + 0) * b + j.val = i.val * b + j.val
    rw [Nat.mul_one, Nat.add_zero])

/-- An `[a, b]` array cast to `[a, 1, b]` reads, at `(i, u, j)`, the operand at `(i, j)`. -/
theorem cast_ab_a1b {a b : ℕ} (x : (⟨2, ![a, b]⟩ : Shape).Idx → α)
    (h : (⟨2, ![a, b]⟩ : Shape).ShapeCasts ⟨3, ![a, 1, b]⟩) (i : Fin a) (u : Fin 1) (j : Fin b) :
    shapeCast ⟨3, ![a, 1, b]⟩ x h (ix3 i u j) = x (ix2 i j) :=
  shapeCast_apply x h _ _ (by
    have hu : u.val = 0 := by omega
    rw [Shape.rowMajor_val_three, Shape.rowMajor_val_two]
    show i.val * b + j.val = (i.val * 1 + u.val) * b + j.val
    rw [hu, Nat.mul_one, Nat.add_zero])

/-- An `[a, b]` array cast to `[a, b, 1]` reads, at `(i, j, u)`, the operand at `(i, j)`. -/
theorem cast_ab_ab1 {a b : ℕ} (x : (⟨2, ![a, b]⟩ : Shape).Idx → α)
    (h : (⟨2, ![a, b]⟩ : Shape).ShapeCasts ⟨3, ![a, b, 1]⟩) (i : Fin a) (j : Fin b) (u : Fin 1) :
    shapeCast ⟨3, ![a, b, 1]⟩ x h (ix3 i j u) = x (ix2 i j) :=
  shapeCast_apply x h _ _ (by
    have hu : u.val = 0 := by omega
    rw [Shape.rowMajor_val_three, Shape.rowMajor_val_two]
    show i.val * b + j.val = (i.val * b + j.val) * 1 + u.val
    rw [hu, Nat.mul_one, Nat.add_zero])

/-- An `[a, b, 1]` array broadcast to `[a, b, c]` reads, at `(i, j, k)`, the operand at `(i, j, 0)`. -/
theorem bcast_ab1_abc {a b c : ℕ} (v : (⟨3, ![a, b, 1]⟩ : Shape).Idx → α)
    (h : (⟨3, ![a, b, 1]⟩ : Shape).Broadcasts ⟨3, ![a, b, c]⟩) (i : Fin a) (j : Fin b) (k : Fin c) :
    broadcastTo ⟨3, ![a, b, c]⟩ v h (ix3 i j k) = v (ix3 i j (0 : Fin 1)) := by
  refine broadcastTo_apply v h (ix3 i j k) (ix3 i j (0 : Fin 1)) fun ax => ?_
  match ax with
  | ⟨0, _⟩ =>
    show i.val = if a = 1 then 0 else i.val
    split
    · have := i.isLt; omega
    · rfl
  | ⟨1, _⟩ =>
    show j.val = if b = 1 then 0 else j.val
    split
    · have := j.isLt; omega
    · rfl
  | ⟨2, _⟩ => rfl

/-- An `[a, 1, c]` array broadcast to `[a, b, c]` reads, at `(i, j, k)`, the operand at `(i, 0, k)`. -/
theorem bcast_a1c_abc {a b c : ℕ} (v : (⟨3, ![a, 1, c]⟩ : Shape).Idx → α)
    (h : (⟨3, ![a, 1, c]⟩ : Shape).Broadcasts ⟨3, ![a, b, c]⟩) (i : Fin a) (j : Fin b) (k : Fin c) :
    broadcastTo ⟨3, ![a, b, c]⟩ v h (ix3 i j k) = v (ix3 i (0 : Fin 1) k) := by
  refine broadcastTo_apply v h (ix3 i j k) (ix3 i (0 : Fin 1) k) fun ax => ?_
  match ax with
  | ⟨0, _⟩ =>
    show i.val = if a = 1 then 0 else i.val
    split
    · have := i.isLt; omega
    · rfl
  | ⟨1, _⟩ => rfl
  | ⟨2, _⟩ =>
    show k.val = if c = 1 then 0 else k.val
    split
    · have := k.isLt; omega
    · rfl

/-- A `[1, b, 1]` array broadcast to `[a, b, c]` reads, at `(i, j, k)`, the operand at `(0, j, 0)`. -/
theorem bcast_1b1_abc {a b c : ℕ} (v : (⟨3, ![1, b, 1]⟩ : Shape).Idx → α)
    (h : (⟨3, ![1, b, 1]⟩ : Shape).Broadcasts ⟨3, ![a, b, c]⟩) (i : Fin a) (j : Fin b) (k : Fin c) :
    broadcastTo ⟨3, ![a, b, c]⟩ v h (ix3 i j k) = v (ix3 (0 : Fin 1) j (0 : Fin 1)) := by
  refine broadcastTo_apply v h (ix3 i j k) (ix3 (0 : Fin 1) j (0 : Fin 1)) fun ax => ?_
  match ax with
  | ⟨0, _⟩ => rfl
  | ⟨1, _⟩ =>
    show j.val = if b = 1 then 0 else j.val
    split
    · have := j.isLt; omega
    · rfl
  | ⟨2, _⟩ => rfl

/-- The count along the middle axis of a `[1, b, 1]` shape, read at `(u, j, z)`, is the word of `j`. -/
theorem iota_mid_apply {b : ℕ} (h : (⟨3, ![1, b, 1]⟩ : Shape).Iotas .tc 32 [1]) (u : Fin 1) (j : Fin b) (z : Fin 1) :
    iota .tc ⟨3, ![1, b, 1]⟩ 32 [1] h (ix3 u j z) = BitVec.ofNat 32 j.val := by
  show BitVec.ofNat 32 (0 * b + j.val) = _
  rw [Nat.zero_mul, Nat.zero_add]

end Layout

/-! ## The stages of the body

The body's long payload, cut at the values that are read more than once or that carry a meaning of their own: the
label bit, the indicator, the counts, the class means, the cross products, the mean squares of the means and the
selected summand. Each is the body's own term over the earlier ones, so the payload is their composition. -/

section Stages
variable (x0 : Vec Ideal S8x128x1296 .f32) (x1 : Vec Ideal S8x1x1296 .i32)

/-- The embeddings as the matrix unit reads them: a change of format, the same extended reals. -/
def emb : FVec Ideal S8x128x1296 .bf16 := truncf (F := Ideal) .bf16 (k0_pay2 (F := Ideal) x0) bitsLt_bf16_f32

/-- The bit "pixel `n` of image `p` carries label `c`", at `(p, c, n)`. -/
def bit : IVec S8x64x1296 1 :=
  cmpi .eq
    (broadcastTo S8x64x1296
      (shapeCast S8x1x1296 (shapeCast S8x1296 x1 shapeCasts_S8x1x1296_S8x1296) shapeCasts_S8x1296_S8x1x1296)
      broadcasts_S8x1x1296_S8x64x1296)
    (broadcastTo S8x64x1296 (iota .tc S1x64x1 32 [1] iota_S1x64x1_d1_w32) broadcasts_S1x64x1_S8x64x1296)

/-- The indicator: the bit as a float. -/
def ind : FVec Ideal S8x64x1296 .f32 := sitofp (F := Ideal) .f32 (extui 32 (bit x1) natLt_1_32)

/-- The pixel counts of the classes, the pixel axis kept with extent one. -/
def cnt : FVec Ideal S8x64x1 .f32 :=
  shapeCast S8x64x1
    (multiReduction (F := Ideal) .add [2] S8x64 (ind x1) 0x00000000#32 reduces_S8x64x1296_S8x64 (.inl rfl) rfl)
    shapeCasts_S8x64_S8x64x1

/-- The damped class means, class by channel. -/
def mean : FVec Ideal S8x64x128 .f32 :=
  divf
    (matmul (F := Ideal) dot_S8x64x1296_S8x128x1296_S8x64x128_2_2_1_1_0_0 none
      (truncf (F := Ideal) .bf16 (ind x1) bitsLt_bf16_f32) (emb x0) (constant (F := Ideal) S8x64x128 .f32 0x00000000#32))
    (broadcastTo S8x64x128 (addf (cnt x1) (broadcast S8x64x1 (Scalar.ofBits (F := Ideal) .f32 0x38D1B717#32)))
      broadcasts_S8x64x1_S8x64x128)

/-- The products of the class means with the pixels' embeddings, class by pixel. -/
def cross : FVec Ideal S8x64x1296 .f32 :=
  matmul (F := Ideal) dot_S8x64x128_S8x128x1296_S8x64x1296_2_1_1_2_0_0 none
    (truncf (F := Ideal) .bf16 (mean x0 x1) bitsLt_bf16_f32) (emb x0) (constant (F := Ideal) S8x64x1296 .f32 0x00000000#32)

/-- The mean squares of the class means, the channel axis kept with extent one. -/
def msq : FVec Ideal S8x64x1 .f32 :=
  divf
    (shapeCast S8x64x1
      (multiReduction (F := Ideal) .add [2] S8x64 (mulf (mean x0 x1) (mean x0 x1)) 0x00000000#32 reduces_S8x64x128_S8x64
        (.inl rfl) rfl)
      shapeCasts_S8x64_S8x64x1)
    (broadcast S8x64x1 (Scalar.ofBits (F := Ideal) .f32 0x43000000#32))

/-- The summand of class `c` at pixel `n`: the class's term where the pixel carries the label, zero elsewhere. -/
def sel : FVec Ideal S8x64x1296 .f32 :=
  select (bit x1)
    (subf (broadcastTo S8x64x1296 (msq x0 x1) broadcasts_S8x64x1_S8x64x1296)
      (mulf (broadcast S8x64x1296 (Scalar.ofBits (F := Ideal) .f32 0x3C800000#32)) (cross x0 x1)))
    (broadcast S8x64x1296 (Scalar.ofBits (F := Ideal) .f32 0x00000000#32))

/-- The long payload is the sum over the classes of the selected summands, with a unit axis put back. -/
theorem pay3_eq :
    k0_pay3 (F := Ideal) x0 x1
      = shapeCast S8x1x1296
          (multiReduction (F := Ideal) .add [1] S8x1296 (sel x0 x1) 0x00000000#32 reduces_S8x64x1296_S8x1296 (.inl rfl) rfl)
          shapeCasts_S8x1296_S8x1x1296 := rfl

/-- The square payload is the sum over the channels of the squared embeddings, with a unit axis put back. -/
theorem pay4_eq :
    k0_pay4 (F := Ideal) x0
      = shapeCast S8x1x1296
          (multiReduction (F := Ideal) .add [1] S8x1296 (mulf (k0_pay2 (F := Ideal) x0) (k0_pay2 (F := Ideal) x0)) 0x00000000#32
            reduces_S8x128x1296_S8x1296 (.inl rfl) rfl)
          shapeCasts_S8x1296_S8x1x1296 := rfl

end Stages

/-! ## The stages read at an index

Fix an image `p` of the block. Its embeddings are the matrix `fun d n => x0 (p, d, n)` and its labels the row
`fun n => x1 (p, 0, n)`; each stage, read at an index with first coordinate `p`, is the specification's quantity of
that image. -/

section Values
variable (x0 : Vec Ideal S8x128x1296 .f32) (x1 : Vec Ideal S8x1x1296 .i32)

/-- A one-bit word widened to 32 bits and read as a signed integer is `1` or `0`. -/
theorem sitofp_bit (b : BitVec 1) :
    FloatOps.sitofp (F := Ideal) .f32 (b.setWidth 32) = if b = 1#1 then (1 : EReal) else 0 := by
  rcases BitVec.eq_zero_or_eq_one b with h | h <;> subst h
  · rw [if_neg (by decide)]
    show ((((0#1 : BitVec 1).setWidth 32).toInt : ℝ) : EReal) = 0
    have e : ((0#1 : BitVec 1).setWidth 32).toInt = 0 := by decide
    rw [e, Int.cast_zero, EReal.coe_zero]
  · rw [if_pos rfl]
    show ((((1#1 : BitVec 1).setWidth 32).toInt : ℝ) : EReal) = 1
    have e : ((1#1 : BitVec 1).setWidth 32).toInt = 1 := by decide
    rw [e, Int.cast_one, EReal.coe_one]

/-- The embeddings in the matrix unit's format are the embeddings. -/
theorem emb_at (p : Fin 8) (d : Fin 128) (n : Fin 1296) : emb x0 (ix3 p d n) = x0 (ix3 p d n) :=
  congrFun (shapeCast_self x0 shapeCasts_S8x128x1296_S8x128x1296) (ix3 p d n)

/-- The block cast to its own shape is the block. -/
theorem pay2_at (p : Fin 8) (d : Fin 128) (n : Fin 1296) : k0_pay2 (F := Ideal) x0 (ix3 p d n) = x0 (ix3 p d n) :=
  congrFun (shapeCast_self x0 shapeCasts_S8x128x1296_S8x128x1296) (ix3 p d n)

/-- The label bit at `(p, c, n)` compares pixel `n`'s label with the word of `c`. -/
theorem bit_at (p : Fin 8) (c : Fin 64) (n : Fin 1296) :
    bit x1 (ix3 p c n) = IntOp.cmpi .eq (x1 (ix3 p (0 : Fin 1) n)) (BitVec.ofNat 32 c.val) :=
  congrArg₂ (IntOp.cmpi .eq)
    ((bcast_a1c_abc _ _ p c n).trans ((cast_ab_a1b _ _ p (0 : Fin 1) n).trans (cast_a1b_ab _ _ p n)))
    ((bcast_1b1_abc _ _ p c n).trans (iota_mid_apply _ (0 : Fin 1) c (0 : Fin 1)))

/-- The indicator at `(p, c, n)` is the specification's. -/
theorem ind_at (p : Fin 8) (c : Fin 64) (n : Fin 1296) :
    ind x1 (ix3 p c n) = hot (fun n => x1 (ix3 p (0 : Fin 1) n)) c n := by
  show FloatOps.sitofp (F := Ideal) .f32 ((bit x1 (ix3 p c n)).setWidth 32) = _
  rw [sitofp_bit, bit_at]
  unfold hot
  by_cases h : x1 (ix3 p (0 : Fin 1) n) = BitVec.ofNat 32 c.val
  · rw [if_pos (StableHlo.Predicate.cmpi_eq_iff.mpr h), if_pos h]
  · rw [if_neg (fun h' => h (StableHlo.Predicate.cmpi_eq_iff.mp h')), if_neg h]

/-- The count at `(p, c, 0)` is the number of pixels of image `p` that carry label `c`. -/
theorem cnt_at (p : Fin 8) (c : Fin 64) (z : Fin 1) :
    cnt x1 (ix3 p c z) = count (fun n => x1 (ix3 p (0 : Fin 1) n)) c := by
  unfold cnt
  refine (cast_ab_ab1 _ _ p c z).trans ?_
  refine (KMat.sum_pixels_at (ind x1) p c).trans ?_
  exact Finset.sum_congr rfl fun n _ => ind_at x1 p c n

/-- The class mean at `(p, c, d)` is the damped mean of channel `d` over the pixels of class `c`. -/
theorem mean_at (p : Fin 8) (c : Fin 64) (d : Fin 128) :
    mean x0 x1 (ix3 p c d) = kmean (fun d n => x0 (ix3 p d n)) (fun n => x1 (ix3 p (0 : Fin 1) n)) c d := by
  unfold mean
  refine (divf_apply _ _ _).trans (congrArg₂ Ideal.div ?_ ?_)
  · refine (KMat.matmul_pixels_at _ _ p c d).trans ?_
    exact Finset.sum_congr rfl fun n _ => congrArg₂ (· * ·) (ind_at x1 p c n) (emb_at x0 p d n)
  · refine (bcast_ab1_abc _ _ p c d).trans ?_
    exact congrArg (· + eps) (cnt_at x1 p c (0 : Fin 1))

/-- The cross product at `(p, c, n)` is the sum over the channels of class mean times embedding. -/
theorem cross_at (p : Fin 8) (c : Fin 64) (n : Fin 1296) :
    cross x0 x1 (ix3 p c n)
      = ∑ d : Fin 128, kmean (fun d n => x0 (ix3 p d n)) (fun n => x1 (ix3 p (0 : Fin 1) n)) c d * x0 (ix3 p d n) := by
  unfold cross
  refine (KMat.matmul_channels_at _ _ p c n).trans ?_
  exact Finset.sum_congr rfl fun d _ => congrArg₂ (· * ·) (mean_at x0 x1 p c d) (emb_at x0 p d n)

/-- The mean square at `(p, c, 0)` is the mean over the channels of the squared class mean. -/
theorem msq_at (p : Fin 8) (c : Fin 64) (z : Fin 1) :
    msq x0 x1 (ix3 p c z)
      = Ideal.div (∑ d : Fin 128, kmean (fun d n => x0 (ix3 p d n)) (fun n => x1 (ix3 p (0 : Fin 1) n)) c d
          * kmean (fun d n => x0 (ix3 p d n)) (fun n => x1 (ix3 p (0 : Fin 1) n)) c d) c128 := by
  unfold msq
  refine (divf_apply _ _ _).trans (congrArg₂ Ideal.div ?_ rfl)
  refine (cast_ab_ab1 _ _ p c z).trans ?_
  refine (KMat.sum_channels_at _ p c).trans ?_
  exact Finset.sum_congr rfl fun d _ => congrArg₂ (· * ·) (mean_at x0 x1 p c d) (mean_at x0 x1 p c d)

/-- The summand of class `c` at pixel `n`: selected by the pixel's label. -/
theorem sel_at (p : Fin 8) (c : Fin 64) (n : Fin 1296) :
    sel x0 x1 (ix3 p c n)
      = if x1 (ix3 p (0 : Fin 1) n) = BitVec.ofNat 32 c.val then
          Ideal.div (∑ d : Fin 128, kmean (fun d n => x0 (ix3 p d n)) (fun n => x1 (ix3 p (0 : Fin 1) n)) c d
              * kmean (fun d n => x0 (ix3 p d n)) (fun n => x1 (ix3 p (0 : Fin 1) n)) c d) c128
            - c64inv * ∑ d : Fin 128, kmean (fun d n => x0 (ix3 p d n)) (fun n => x1 (ix3 p (0 : Fin 1) n)) c d * x0 (ix3 p d n)
        else 0 := by
  unfold sel
  refine (select_apply _ _ _ _).trans ?_
  rw [bit_at]
  by_cases h : x1 (ix3 p (0 : Fin 1) n) = BitVec.ofNat 32 c.val
  · rw [if_pos h, StableHlo.Predicate.cmpi_eq_iff.mpr h, select_one]
    refine (subf_apply _ _ _).trans (congrArg₂ (· - ·) ?_ ?_)
    · exact (bcast_ab1_abc _ _ p c n).trans (msq_at x0 x1 p c (0 : Fin 1))
    · exact (mulf_apply _ _ _).trans (congrArg (c64inv * ·) (cross_at x0 x1 p c n))
  · rw [if_neg h, eq_zero_of_ne_one (fun h' => h (StableHlo.Predicate.cmpi_eq_iff.mp h')), select_zero]
    exact Ideal.ofBits_zero_f32

/-- The long payload at `(p, 0, q)`: the sum over the classes of the selected summands at pixel `q`. -/
theorem pay3_at (p : Fin 8) (z : Fin 1) (q : Fin 1296) :
    k0_pay3 (F := Ideal) x0 x1 (ix3 p z q)
      = ∑ c : Fin 64, (if x1 (ix3 p (0 : Fin 1) q) = BitVec.ofNat 32 c.val then
          Ideal.div (∑ d : Fin 128, kmean (fun d n => x0 (ix3 p d n)) (fun n => x1 (ix3 p (0 : Fin 1) n)) c d
              * kmean (fun d n => x0 (ix3 p d n)) (fun n => x1 (ix3 p (0 : Fin 1) n)) c d) c128
            - c64inv * ∑ d : Fin 128, kmean (fun d n => x0 (ix3 p d n)) (fun n => x1 (ix3 p (0 : Fin 1) n)) c d * x0 (ix3 p d q)
        else 0) := by
  rw [pay3_eq]
  refine (cast_ab_a1b _ _ p z q).trans ?_
  refine (KMat.sum_classes_at _ p q).trans ?_
  exact Finset.sum_congr rfl fun c _ => sel_at x0 x1 p c q

/-- The square payload at `(p, 0, q)`: the sum over the channels of pixel `q`'s squared embedding. -/
theorem pay4_at (p : Fin 8) (z : Fin 1) (q : Fin 1296) :
    k0_pay4 (F := Ideal) x0 (ix3 p z q) = ∑ d : Fin 128, x0 (ix3 p d q) * x0 (ix3 p d q) := by
  rw [pay4_eq]
  refine (cast_ab_a1b _ _ p z q).trans ?_
  refine (KMat.sum_chan_pix_at _ p q).trans ?_
  exact Finset.sum_congr rfl fun d _ =>
    (mulf_apply _ _ _).trans (congrArg₂ (· * ·) (pay2_at x0 p d q) (pay2_at x0 p d q))

end Values

/-! ## The output block -/

/-- The output block of the body, from an 8-image block `x0` of embeddings and the block `x1` of their labels, holds at
    (p, 0, q) the expanded distance of pixel `q` of image `p`. -/
theorem out0_2_at (x0 : Vec Ideal S8x128x1296 .f32) (x1 : Vec Ideal S8x1x1296 .i32) (p : Fin 8) (q : Fin 1296) :
    out0_2 (F := Ideal) x0 x1 (ix3 p (0 : Fin 1) q)
      = kernelVal1 (fun d n => x0 (ix3 p d n)) (fun n => x1 (ix3 p (0 : Fin 1) n)) q := by
  have hz : (![0, 0, 0] : Fin 3 → Nat) = fun _ => 0 := funext fun a => by fin_cases a <;> rfl
  unfold out0_2
  rw [View.canon_unit_zero hz]
  simp only [View.ld_unit_zero (S := S8x128x1296) hz, View.ld_unit_zero (S := S8x1x1296) hz]
  unfold k0_pay1
  show max (Ideal.div (k0_pay4 (F := Ideal) x0 (ix3 p (0 : Fin 1) q)) (k0_pay5 (F := Ideal) (ix3 p (0 : Fin 1) q))
      + k0_pay3 (F := Ideal) x0 x1 (ix3 p (0 : Fin 1) q)) (Ideal.ofBits .f32 0x00000000#32) = _
  rw [pay3_at, pay4_at, Ideal.ofBits_zero_f32]
  rfl

end Cert.KernelIdeal.KBlock

end
-- ==== Proof.KArray.lean ====
/-
  The array the region leaves: the 32 output blocks, one per group of 8 images, are the restrictions of one function of
  the argument arrays, so after the run the region's output array [256, 1, 1296] holds at (b, 0, n) the expanded distance
  of pixel n of image b.
-/
import proofs.«401519_j68745246540061_3_alg».proof.Proof.KBlock
import Idealize.ShloMosaic.Lib.Pipeline.Value

set_option maxRecDepth 16384

noncomputable section

namespace Cert.KernelIdeal.KArray

open Cert.KernelIdeal Cert.KernelIdeal.Gen Idealize.ShloMosaic Idealize.ShloMosaic.TcCoe Idealize.ShloMosaic.ValueIdx Idealize.SL.Sem Cert.ClassDist

variable (m : (ℓ : Loc nD τ sig) → Buf (Elt Ideal) ℓ)

/-! ## The two arrays the region finds -/

/-- The region finds the embeddings as the argument reshaped to [256, 128, 1296]. -/
theorem embeddings_found (c : Dev nD) :
    (V m c main_v0 : S256x128x1296.Idx → EReal)
      = shapeCast _ (m ((c : Thread nD τ).loc main_arg0)) shapeCasts_S256x128x36x36_S256x128x1296 := by
  show StableHlo.after hostOps0 (fun b => m (c, b)) (Proc.devRef .tc main_v0) = _
  after_results
  rfl

/-- The region finds the labels as the argument reshaped to [256, 1, 1296]. -/
theorem labels_found (c : Dev nD) :
    (V m c main_v1 : S256x1x1296.Idx → BitVec 32)
      = shapeCast _ (m ((c : Thread nD τ).loc main_arg1)) shapeCasts_S256x36x36_S256x1x1296 := by
  show StableHlo.after hostOps0 (fun b => m (c, b)) (Proc.devRef .tc main_v1) = _
  after_results
  rfl

/-- Entry (b, d, n) of the reshaped embeddings is channel d of pixel n of image b. -/
theorem embeddings_at (c : Dev nD) (b : Fin 256) (d : Fin 128) (n : Fin 1296) :
    (V m c main_v0 : S256x128x1296.Idx → EReal) (ix3 b d n) = Xrow (m ((c : Thread nD τ).loc main_arg0)) b d n := by
  rw [embeddings_found]
  refine shapeCast_apply _ _ (ix3 b d n) (ix4 b d (pixRow n) (pixCol n)) ?_
  rewrite [Shape.rowMajor_val_four, Shape.rowMajor_val_three]
  have hn : n.val < 1296 := n.isLt
  show ((b.val * 128 + d.val) * 36 + n.val / 36) * 36 + n.val % 36 = (b.val * 128 + d.val) * 1296 + n.val
  omega

/-- Entry (b, 0, n) of the reshaped labels is the label of pixel n of image b. -/
theorem labels_at (c : Dev nD) (b : Fin 256) (n : Fin 1296) :
    (V m c main_v1 : S256x1x1296.Idx → BitVec 32) (ix3 b (0 : Fin 1) n) = Krow (m ((c : Thread nD τ).loc main_arg1)) b n := by
  rw [labels_found]
  refine shapeCast_apply _ _ (ix3 b (0 : Fin 1) n) (ix3 b (pixRow n) (pixCol n)) ?_
  rewrite [Shape.rowMajor_val_three, Shape.rowMajor_val_three]
  have hn : n.val < 1296 := n.isLt
  show (b.val * 36 + n.val / 36) * 36 + n.val % 36 = (b.val * 1 + 0) * 1296 + n.val
  omega

/-! ## The blocks of eight images -/

/-- At grid point t every window is on block (t, 0, 0) of its array. -/
theorem block_index : ∀ t : Fin cfg0.N,
    (win0_0.index t (0 : Fin 3) = t.val ∧ win0_0.index t (1 : Fin 3) = 0 ∧ win0_0.index t (2 : Fin 3) = 0)
    ∧ (win0_1.index t (0 : Fin 3) = t.val ∧ win0_1.index t (1 : Fin 3) = 0 ∧ win0_1.index t (2 : Fin 3) = 0)
    ∧ (win0_2.index t (0 : Fin 3) = t.val ∧ win0_2.index t (1 : Fin 3) = 0 ∧ win0_2.index t (2 : Fin 3) = 0) :=
  (by decide +kernel : ∀ t : Fin grid0.N, _)

/-- Image p of the eight images of grid point t, as an image of the batch. -/
def imageOf (t : Fin cfg0.N) (p : Fin 8) : Fin 256 :=
  ⟨8 * t.val + p.val, by have ht : t.val < cfg0.N := t.isLt; have hN : cfg0.N = 32 := N_0; have hp : p.val < 8 := p.isLt; omega⟩

/-- Row (p, d, n) of the embeddings' block at point t is row (8t + p, d, n) of the array. -/
theorem embeddings_block_at (c : Dev nD) (t : Fin cfg0.N) (p : Fin 8) (d : Fin 128) (n : Fin 1296) :
    (iblk m c 0 t : Vec Ideal S8x128x1296 .f32) (ix3 p d n)
      = (V m c main_v0 : S256x128x1296.Idx → EReal) (ix3 (imageOf t p) d n) := by
  obtain ⟨⟨e0, e1, e2⟩, -, -⟩ := block_index t
  unfold iblk
  rw [View.read_apply]
  show V m c main_v0 (((cfg0.win 0).blk t).view.emb (ix3 p d n)) = V m c main_v0 (ix3 (imageOf t p) d n)
  refine congrArg (V m c main_v0) (funext fun a => Fin.ext ?_)
  match a with
  | ⟨0, _⟩ => show win0_0.index t (0 : Fin 3) * 8 + 1 * p.val = 8 * t.val + p.val; omega
  | ⟨1, _⟩ => show win0_0.index t (1 : Fin 3) * 128 + 1 * d.val = d.val; omega
  | ⟨2, _⟩ => show win0_0.index t (2 : Fin 3) * 1296 + 1 * n.val = n.val; omega

/-- Row (p, 0, n) of the labels' block at point t is row (8t + p, 0, n) of the array. -/
theorem labels_block_at (c : Dev nD) (t : Fin cfg0.N) (p : Fin 8) (n : Fin 1296) :
    (iblk m c 1 t : Vec Ideal S8x1x1296 .i32) (ix3 p (0 : Fin 1) n)
      = (V m c main_v1 : S256x1x1296.Idx → BitVec 32) (ix3 (imageOf t p) (0 : Fin 1) n) := by
  obtain ⟨-, ⟨e0, e1, e2⟩, -⟩ := block_index t
  unfold iblk
  rw [View.read_apply]
  show V m c main_v1 (((cfg0.win 1).blk t).view.emb (ix3 p (0 : Fin 1) n)) = V m c main_v1 (ix3 (imageOf t p) (0 : Fin 1) n)
  refine congrArg (V m c main_v1) (funext fun a => Fin.ext ?_)
  match a with
  | ⟨0, _⟩ => show win0_1.index t (0 : Fin 3) * 8 + 1 * p.val = 8 * t.val + p.val; omega
  | ⟨1, _⟩ => show win0_1.index t (1 : Fin 3) * 1 + 1 * 0 = 0; omega
  | ⟨2, _⟩ => show win0_1.index t (2 : Fin 3) * 1296 + 1 * n.val = n.val; omega

/-- Entry (p, 0, q) of the output's block at point t sits at (8t + p, 0, q) in the output array. -/
theorem out_block_emb (t : Fin cfg0.N) (p : Fin 8) (q : Fin 1296) :
    ((cfg0.win 2).blk t).view.emb (ix3 p (0 : Fin 1) q) = (ix3 (imageOf t p) (0 : Fin 1) q : S256x1x1296.Idx) := by
  obtain ⟨-, -, ⟨e0, e1, e2⟩⟩ := block_index t
  refine funext fun a => Fin.ext ?_
  match a with
  | ⟨0, _⟩ => show win0_2.index t (0 : Fin 3) * 8 + 1 * p.val = 8 * t.val + p.val; omega
  | ⟨1, _⟩ => show win0_2.index t (1 : Fin 3) * 1 + 1 * 0 = 0; omega
  | ⟨2, _⟩ => show win0_2.index t (2 : Fin 3) * 1296 + 1 * q.val = q.val; omega

/-! ## What a grid point writes back, and the array -/

/-- The expanded distance of every pixel of every image, as an array [256, 1, 1296]. -/
abbrev distances (c : Dev nD) : S256x1x1296.Idx → EReal :=
  fun j => kernelVal1 (Xrow (m ((c : Thread nD τ).loc main_arg0)) ⟨(j 0).val, (j 0).isLt⟩)
    (Krow (m ((c : Thread nD τ).loc main_arg1)) ⟨(j 0).val, (j 0).isLt⟩) ⟨(j 2).val, (j 2).isLt⟩

/-- Grid point t writes back the rows 8t … 8t + 7 of the distances: its body's block, read by the block lemma, is
    the expanded distance of the eight images staged there, and those are images 8t … 8t + 7 of the batch. -/
theorem flushed_eq (c : Dev nD) (t : Fin cfg0.N) :
    (dats m 0 c).flushed 2 t = ((cfg0.win 2).blk t).view.read (Elt Ideal) (distances m c) := by
  show (cfg0.win 2).cut (grid0.coords t) ((dats m 0 c).after 2 t) = _
  rw [after0_2]
  funext j
  obtain ⟨p, z, q, rfl⟩ : ∃ (p : Fin 8) (z : Fin 1) (q : Fin 1296), j = ix3 p z q :=
    ⟨j 0, j 1, j 2, eq_ix3 (n0 := 8) (n1 := 1) (n2 := 1296) j⟩
  obtain rfl : z = 0 := Subsingleton.elim _ _
  rw [View.read_apply]
  show out0_2 (F := Ideal) (iblk m c 0 t) (iblk m c 1 t) (ix3 p (0 : Fin 1) q)
    = distances m c (((cfg0.win 2).blk t).view.emb (ix3 p (0 : Fin 1) q))
  rw [out_block_emb t p q]
  refine (KBlock.out0_2_at (iblk m c 0 t) (iblk m c 1 t) p q).trans ?_
  have hX : (fun d n => (iblk m c 0 t : Vec Ideal S8x128x1296 .f32) (ix3 p d n))
      = Xrow (m ((c : Thread nD τ).loc main_arg0)) (imageOf t p) :=
    funext fun d => funext fun n => (embeddings_block_at m c t p d n).trans (embeddings_at m c (imageOf t p) d n)
  have hK : (fun n => (iblk m c 1 t : Vec Ideal S8x1x1296 .i32) (ix3 p (0 : Fin 1) n))
      = Krow (m ((c : Thread nD τ).loc main_arg1)) (imageOf t p) :=
    funext fun n => (labels_block_at m c t p n).trans (labels_at m c (imageOf t p) n)
  rw [hX, hK]

/-- An index of the output array is in point t's block iff each coordinate is in the block's range on its axis. -/
theorem mem_block (t : Fin cfg0.N) (i : S256x1x1296.Idx) :
    i ∈ ((cfg0.win 2).blk t).view.set ↔ ∀ a : Fin 3, win0_2.index t a * S8x1x1296.size a ≤ (i a).val
      ∧ (i a).val < win0_2.index t a * S8x1x1296.size a + S8x1x1296.size a := by
  show i ∈ ((View.whole main_v2).slice (win0_2.rect t)).set ↔ _
  rw [View.set_slice_whole, Rect.mem_set_unit]
  exact Iff.rfl

/-- Every index (b, 0, n) of the output array is in the block of point b / 8, which is written back. -/
theorem covered (i : S256x1x1296.Idx) :
    ∃ t : Fin cfg0.N, (cfg0.win 2).flush t = true ∧ i ∈ ((cfg0.win 2).blk t).view.set := by
  have h0 : (i 0).val < 256 := (i 0).isLt
  have h1 : (i 1).val < 1 := (i 1).isLt
  have h2 : (i 2).val < 1296 := (i 2).isLt
  have hN : cfg0.N = 32 := N_0
  have ht : (i 0).val / 8 < cfg0.N := by omega
  obtain ⟨-, -, ⟨e0, e1, e2⟩⟩ := block_index ⟨(i 0).val / 8, ht⟩
  refine ⟨⟨(i 0).val / 8, ht⟩, flush0_2 _, ?_⟩
  rw [mem_block]
  intro a
  match a with
  | ⟨0, _⟩ =>
    show win0_2.index ⟨(i 0).val / 8, ht⟩ (0 : Fin 3) * 8 ≤ (i 0).val
      ∧ (i 0).val < win0_2.index ⟨(i 0).val / 8, ht⟩ (0 : Fin 3) * 8 + 8
    rw [e0]; show (i 0).val / 8 * 8 ≤ (i 0).val ∧ (i 0).val < (i 0).val / 8 * 8 + 8; omega
  | ⟨1, _⟩ =>
    show win0_2.index ⟨(i 0).val / 8, ht⟩ (1 : Fin 3) * 1 ≤ (i 1).val
      ∧ (i 1).val < win0_2.index ⟨(i 0).val / 8, ht⟩ (1 : Fin 3) * 1 + 1
    rw [e1]; omega
  | ⟨2, _⟩ =>
    show win0_2.index ⟨(i 0).val / 8, ht⟩ (2 : Fin 3) * 1296 ≤ (i 2).val
      ∧ (i 2).val < win0_2.index ⟨(i 0).val / 8, ht⟩ (2 : Fin 3) * 1296 + 1296
    rw [e2]; omega

/-- The region's output array after the run. -/
theorem final (c : Dev nD) :
    (dats m 0 c).arrAt 2 cfg0.N = (fun j => kernelVal1 (Xrow (m ((c : Thread nD τ).loc main_arg0)) ⟨(j 0).val, (j 0).isLt⟩)
      (Krow (m ((c : Thread nD τ).loc main_arg1)) ⟨(j 0).val, (j 0).isLt⟩) ⟨(j 2).val, (j 2).isLt⟩) :=
  (dats m 0 c).arrAt_eq_of_cover 2 (distances m c) (fun t _ => flushed_eq m c t) covered

end Cert.KernelIdeal.KArray

end
-- ==== Proof.KTail.lean ====
/-
  The kernel program's run, read: the two host operations after the region drop the unit axis of the region's output
  array and append one, so the program's result [256, 1296, 1] holds at (b, n, 0) the expanded distance of pixel n of
  image b; the arguments end unchanged.
-/
import proofs.«401519_j68745246540061_3_alg».proof.Proof.KArray

set_option maxRecDepth 16384

noncomputable section

namespace Cert.KernelIdeal.KTail

open Cert.KernelIdeal Cert.KernelIdeal.Gen Idealize.ShloMosaic Idealize.ShloMosaic.TcCoe Idealize.ShloMosaic.ValueIdx Idealize.SL.Sem Cert.ClassDist Idealize.ShloMosaic.StableHlo

variable (m : (ℓ : Loc nD τ sig) → Buf (Elt Ideal) ℓ) (ρ : Dev nD → PrngReg)

/-- The program's result after the host tail: entry (b, n, z) of the appended-axis array is entry (b, n) of the array with
    the unit axis dropped, which is entry (b, 0, n) of the region's output array (the two have the same row-major
    position, b·1296 + n), and that is the expanded distance of pixel n of image b. -/
theorem tail_eq (c : Dev nD) :
    Pipeline.afterTail₀ cfgs (dats m) 0 (V0 m) [hostOps1] c main_v4
      = (fun i => outK (m ((c : Thread nD τ).loc main_arg0)) (m ((c : Thread nD τ).loc main_arg1)) i) := by
  unfold Pipeline.afterTail₀
  show StableHlo.after hostOps1 _ (Proc.devRef .tc main_v4) = _
  after_results
  funext i
  obtain ⟨b, n, z, rfl⟩ : ∃ (b : Fin 256) (n : Fin 1296) (z : Fin 1), i = ix3 b n z := ⟨i 0, i 1, i 2, eq_ix3 i⟩
  refine (broadcastInDim_apply _ bcast_S256x1296_S256x1296x1_0_1 _ (ix3 b n z) (ix2 b n) (fun a => match a with
    | ⟨0, _⟩ => by show b.val = if (256 : Nat) = 1 then 0 else b.val; rw [if_neg (by decide)]
    | ⟨1, _⟩ => by show n.val = if (1296 : Nat) = 1 then 0 else n.val; rw [if_neg (by decide)])).trans ?_
  show shapeCast S256x1296 (Pipeline.withArrays (cfgs 0).spec c (V0 m c) (fun w => (dats m 0 c).arrAt w (cfgs 0).N)
      (Proc.devRef .tc main_v2)) shapeCasts_S256x1x1296_S256x1296 (ix2 b n) = _
  refine (shapeCast_apply _ shapeCasts_S256x1x1296_S256x1296 (ix2 b n) (ix3 b (0 : Fin 1) n) (by
    rw [Shape.rowMajor_val_three, Shape.rowMajor_val_two]
    show (b.val * 1 + 0) * 1296 + n.val = b.val * 1296 + n.val
    omega)).trans ?_
  refine (congrFun (Pipeline.withArrays_arr spec0 launch0.win.arr_inj c _ _ 2) (ix3 b (0 : Fin 1) n)).trans ?_
  exact congrFun (KArray.final m c) (ix3 b (0 : Fin 1) n)

/-- The run: the result at the expanded form of the arguments, the arguments kept. -/
theorem run : θ_run defs (onTc (τ := τ) (main (F := Ideal))) ⟨m, fun _ => 0, ρ⟩ fun r => ∀ c : Dev nD,
      r.2.mem ((c : Thread nD τ).loc main_v4) = (fun i => outK (m ((c : Thread nD τ).loc main_arg0)) (m ((c : Thread nD τ).loc main_arg1)) i)
      ∧ r.2.mem ((c : Thread nD τ).loc main_arg0) = m ((c : Thread nD τ).loc main_arg0)
      ∧ r.2.mem ((c : Thread nD τ).loc main_arg1) = m ((c : Thread nD τ).loc main_arg1) :=
  (θ_run defs _ _).mono (fun _ h c =>
      ⟨((h c).2 main_v4 (Pipeline.mem_restRefs_of main_v4 (by decide) (by decide))).trans (tail_eq m c),
       ((h c).2 main_arg0 (Pipeline.mem_restRefs_of main_arg0 (by decide) (by decide))).trans (W_main_arg0 m (dats m) c),
       ((h c).2 main_arg1 (Pipeline.mem_restRefs_of main_arg1 (by decide) (by decide))).trans (W_main_arg1 m (dats m) c)⟩)
    (run_main m ρ)

end Cert.KernelIdeal.KTail

end
-- ==== Proof.RefRun.lean ====
/-
  The reference program's run, read stage by stage: every weakly fair execution of its 49 host operations terminates with
  the result buffer at the last stage's value of the two argument arrays, and the arguments unchanged.
-/
import proofs.«401519_j68745246540061_3_alg».proof.Proof.RefOps
import proofs.«401519_j68745246540061_3_alg».proof.Proof.RefStages

noncomputable section

namespace Cert.ReferenceIdeal.HandRun

open Cert.ReferenceIdeal Cert.ReferenceIdeal.Gen Idealize.ShloMosaic Idealize.ShloMosaic.TcCoe Idealize.SL.Sem Idealize.ShloMosaic.StableHlo

variable {F : FTy → Type} [FloatOps F]

/-! ## The list, cut into six stretches -/

abbrev s1 : List (HloOp τ sig (Elt F)) :=
  [ reshape main_arg0 main_v0 rfl shapeCasts_S256x128x36x36_S256x128x1296,
    reshape main_arg1 main_v1 rfl shapeCasts_S256x36x36_S256x1296,
    TRef.unary (TRef.of (T := ⟨S256x1296, .i32⟩) main_v1) (TRef.of (T := ⟨S256x1296x1, .i32⟩) main_call0_v0) (broadcastInDim S256x1296x1 ![0, 1] bcast_S256x1296_S256x1296x1_0_1),
    TRef.nullary (TRef.of (T := ⟨S1x1x64, .i32⟩) main_call0_v1) (iotaInDim S1x1x64 32 2),
    TRef.unary (TRef.of (T := ⟨S256x1296x1, .i32⟩) main_call0_v0) (TRef.of (T := ⟨S256x1296x64, .i32⟩) main_call0_v2) (broadcastInDim S256x1296x64 ![0, 1, 2] bcast_S256x1296x1_S256x1296x64_0_1_2),
    TRef.unary (TRef.of (T := ⟨S1x1x64, .i32⟩) main_call0_v1) (TRef.of (T := ⟨S256x1296x64, .i32⟩) main_call0_v3) (broadcastInDim S256x1296x64 ![0, 1, 2] bcast_S1x1x64_S256x1296x64_0_1_2),
    TRef.binary (TRef.of (T := ⟨S256x1296x64, .i32⟩) main_call0_v2) (TRef.of (T := ⟨S256x1296x64, .i32⟩) main_call0_v3) (TRef.of (T := ⟨S256x1296x64, .i1⟩) main_call0_v4) (cmpi .eq),
    TRef.unary (TRef.of (T := ⟨S256x1296x64, .i1⟩) main_call0_v4) (TRef.of (T := ⟨S256x1296x64, .f32⟩) main_v2) (uitofp .f32) ]

abbrev s2 : List (HloOp τ sig (Elt F)) :=
  [ nullary main_cst (constant S_ .f32 0x00000000#32),
    binary main_v2 main_cst main_v3 ((fun x v => Host.reduceAdd x v reducesTo_S256x1296x64_S256x64_d1 h_S_) : (⟨S256x1296x64, .f32⟩ : BufTy).Contents (Elt F) → (⟨S_, .f32⟩ : BufTy).Contents (Elt F) → (⟨S256x64, .f32⟩ : BufTy).Contents (Elt F)),
    binary main_v0 main_v2 main_v4 ((fun l r => Host.dotGeneral dot_S256x128x1296_S256x1296x64_S256x128x64_2_1_1_2_0_0 none l r) : (⟨S256x128x1296, .f32⟩ : BufTy).Contents (Elt F) → (⟨S256x1296x64, .f32⟩ : BufTy).Contents (Elt F) → (⟨S256x128x64, .f32⟩ : BufTy).Contents (Elt F)),
    unary main_v3 main_v5 (broadcastInDim S256x1x64 ![0, 2] bcast_S256x64_S256x1x64_0_2 : (⟨S256x64, .f32⟩ : BufTy).Contents (Elt F) → (⟨S256x1x64, .f32⟩ : BufTy).Contents (Elt F)),
    nullary main_cst_0 (constant S_ .f32 0x38D1B717#32),
    unary main_cst_0 main_v6 (broadcastInDim S256x1x64 ![] bcast_S_S256x1x64 : (⟨S_, .f32⟩ : BufTy).Contents (Elt F) → (⟨S256x1x64, .f32⟩ : BufTy).Contents (Elt F)),
    binary main_v5 main_v6 main_v7 (addf : (⟨S256x1x64, .f32⟩ : BufTy).Contents (Elt F) → (⟨S256x1x64, .f32⟩ : BufTy).Contents (Elt F) → (⟨S256x1x64, .f32⟩ : BufTy).Contents (Elt F)),
    unary main_v7 main_v8 (broadcastInDim S256x128x64 ![0, 1, 2] bcast_S256x1x64_S256x128x64_0_1_2 : (⟨S256x1x64, .f32⟩ : BufTy).Contents (Elt F) → (⟨S256x128x64, .f32⟩ : BufTy).Contents (Elt F)) ]

abbrev s3 : List (HloOp τ sig (Elt F)) :=
  [ binary main_v4 main_v8 main_v9 (Host.divf : (⟨S256x128x64, .f32⟩ : BufTy).Contents (Elt F) → (⟨S256x128x64, .f32⟩ : BufTy).Contents (Elt F) → (⟨S256x128x64, .f32⟩ : BufTy).Contents (Elt F)),
    unary main_v1 main_v10 (broadcastInDim S256x1x1296 ![0, 2] bcast_S256x1296_S256x1x1296_0_2 : (⟨S256x1296, .i32⟩ : BufTy).Contents (Elt F) → (⟨S256x1x1296, .i32⟩ : BufTy).Contents (Elt F)),
    unary main_v10 main_v11 (broadcastInDim S256x128x1296 ![0, 1, 2] bcast_S256x1x1296_S256x128x1296_0_1_2 : (⟨S256x1x1296, .i32⟩ : BufTy).Contents (Elt F) → (⟨S256x128x1296, .i32⟩ : BufTy).Contents (Elt F)),
    TRef.nullary (TRef.of (T := ⟨S_, .i32⟩) main_call1_c) (constantI S_ 32 0#32),
    TRef.unary (TRef.of (T := ⟨S_, .i32⟩) main_call1_c) (TRef.of (T := ⟨S256x128x1296, .i32⟩) main_call1_v0) (broadcastInDim S256x128x1296 ![] bcast_S_S256x128x1296),
    TRef.binary (TRef.of (T := ⟨S256x128x1296, .i32⟩) main_v11) (TRef.of (T := ⟨S256x128x1296, .i32⟩) main_call1_v0) (TRef.of (T := ⟨S256x128x1296, .i1⟩) main_call1_v1) (cmpi .slt),
    TRef.nullary (TRef.of (T := ⟨S_, .i32⟩) main_call1_c_0) (constantI S_ 32 64#32),
    TRef.unary (TRef.of (T := ⟨S_, .i32⟩) main_call1_c_0) (TRef.of (T := ⟨S256x128x1296, .i32⟩) main_call1_v2) (broadcastInDim S256x128x1296 ![] bcast_S_S256x128x1296) ]

abbrev s4 : List (HloOp τ sig (Elt F)) :=
  [ TRef.binary (TRef.of (T := ⟨S256x128x1296, .i32⟩) main_v11) (TRef.of (T := ⟨S256x128x1296, .i32⟩) main_call1_v2) (TRef.of (T := ⟨S256x128x1296, .i32⟩) main_call1_v3) addi,
    TRef.ternary (TRef.of (T := ⟨S256x128x1296, .i1⟩) main_call1_v1) (TRef.of (T := ⟨S256x128x1296, .i32⟩) main_call1_v3) (TRef.of (T := ⟨S256x128x1296, .i32⟩) main_v11) (TRef.of (T := ⟨S256x128x1296, .i32⟩) main_call1_v4) select,
    TRef.reshape (TRef.of (T := ⟨S256x128x1296, .i32⟩) main_call1_v4) (TRef.of (T := ⟨S256x128x1296x1, .i32⟩) main_call1_v5) rfl shapeCasts_S256x128x1296_S256x128x1296x1,
    TRef.nullary (TRef.of (T := ⟨S1, .i32⟩) main_call1_c_1) (constantI S1 32 63#32),
    TRef.nullary (TRef.of (T := ⟨S_, .i32⟩) main_call1_c_2) (constantI S_ 32 0#32),
    TRef.unary (TRef.of (T := ⟨S_, .i32⟩) main_call1_c_2) (TRef.of (T := ⟨S256x128x1296x1, .i32⟩) main_call1_v6) (broadcastInDim S256x128x1296x1 ![] bcast_S_S256x128x1296x1),
    TRef.binary (TRef.of (T := ⟨S256x128x1296x1, .i32⟩) main_call1_v5) (TRef.of (T := ⟨S256x128x1296x1, .i32⟩) main_call1_v6) (TRef.of (T := ⟨S256x128x1296x1, .i1⟩) main_call1_v7) (cmpi .sge),
    TRef.unary (TRef.of (T := ⟨S1, .i32⟩) main_call1_c_1) (TRef.of (T := ⟨S1x1x1x1, .i32⟩) main_call1_v8) (broadcastInDim S1x1x1x1 ![3] bcast_S1_S1x1x1x1_3) ]

abbrev s5 : List (HloOp τ sig (Elt F)) :=
  [ TRef.unary (TRef.of (T := ⟨S1x1x1x1, .i32⟩) main_call1_v8) (TRef.of (T := ⟨S256x128x1296x1, .i32⟩) main_call1_v9) (broadcastInDim S256x128x1296x1 ![0, 1, 2, 3] bcast_S1x1x1x1_S256x128x1296x1_0_1_2_3),
    TRef.binary (TRef.of (T := ⟨S256x128x1296x1, .i32⟩) main_call1_v5) (TRef.of (T := ⟨S256x128x1296x1, .i32⟩) main_call1_v9) (TRef.of (T := ⟨S256x128x1296x1, .i1⟩) main_call1_v10) (cmpi .sle),
    TRef.binary (TRef.of (T := ⟨S256x128x1296x1, .i1⟩) main_call1_v7) (TRef.of (T := ⟨S256x128x1296x1, .i1⟩) main_call1_v10) (TRef.of (T := ⟨S256x128x1296x1, .i1⟩) main_call1_v11) andi,
    TRef.nullary (TRef.of (T := ⟨S_, .i1⟩) main_call1_c_3) (constantI S_ 1 1#1),
    TRef.binary (TRef.of (T := ⟨S256x128x1296x1, .i1⟩) main_call1_v11) (TRef.of (T := ⟨S_, .i1⟩) main_call1_c_3) (TRef.of (T := ⟨S256x128x1296, .i1⟩) main_call1_v12) (fun x v => Host.reduce IntOp.andi x v reducesTo_S256x128x1296x1_S256x128x1296_d3 h_S_),
    TRef.binary (TRef.of (T := ⟨S256x128x64, .f32⟩) main_v9) (TRef.of (T := ⟨S256x128x1296x1, .i32⟩) main_call1_v5) (TRef.of (T := ⟨S256x128x1296, .f32⟩) main_call1_v13) (fun x i => Host.gather gather_S256x128x64_S256x128x1296x1_S256x128x1296_n_2_01_01_2_3_111 x i),
    TRef.nullary (TRef.of (T := ⟨S_, .f32⟩) main_call1_cst) (constant S_ .f32 0x7FC00000#32),
    TRef.unary (TRef.of (T := ⟨S_, .f32⟩) main_call1_cst) (TRef.of (T := ⟨S256x128x1296, .f32⟩) main_call1_v14) (broadcastInDim S256x128x1296 ![] bcast_S_S256x128x1296) ]

abbrev s6 : List (HloOp τ sig (Elt F)) :=
  [ TRef.ternary (TRef.of (T := ⟨S256x128x1296, .i1⟩) main_call1_v12) (TRef.of (T := ⟨S256x128x1296, .f32⟩) main_call1_v13) (TRef.of (T := ⟨S256x128x1296, .f32⟩) main_call1_v14) (TRef.of (T := ⟨S256x128x1296, .f32⟩) main_v12) select,
    binary main_v0 main_v12 main_v13 (subf : (⟨S256x128x1296, .f32⟩ : BufTy).Contents (Elt F) → (⟨S256x128x1296, .f32⟩ : BufTy).Contents (Elt F) → (⟨S256x128x1296, .f32⟩ : BufTy).Contents (Elt F)),
    binary main_v13 main_v13 main_v14 (mulf : (⟨S256x128x1296, .f32⟩ : BufTy).Contents (Elt F) → (⟨S256x128x1296, .f32⟩ : BufTy).Contents (Elt F) → (⟨S256x128x1296, .f32⟩ : BufTy).Contents (Elt F)),
    nullary main_cst_1 (constant S_ .f32 0x00000000#32),
    binary main_v14 main_cst_1 main_v15 ((fun x v => Host.reduceAdd x v reducesTo_S256x128x1296_S256x1296_d1 h_S_) : (⟨S256x128x1296, .f32⟩ : BufTy).Contents (Elt F) → (⟨S_, .f32⟩ : BufTy).Contents (Elt F) → (⟨S256x1296, .f32⟩ : BufTy).Contents (Elt F)),
    nullary main_cst_2 (constant S_ .f32 0x43000000#32),
    unary main_cst_2 main_v16 (broadcastInDim S256x1296 ![] bcast_S_S256x1296 : (⟨S_, .f32⟩ : BufTy).Contents (Elt F) → (⟨S256x1296, .f32⟩ : BufTy).Contents (Elt F)),
    binary main_v15 main_v16 main_v17 (Host.divf : (⟨S256x1296, .f32⟩ : BufTy).Contents (Elt F) → (⟨S256x1296, .f32⟩ : BufTy).Contents (Elt F) → (⟨S256x1296, .f32⟩ : BufTy).Contents (Elt F)),
    unary main_v17 main_v18 (broadcastInDim S256x1296x1 ![0, 1] bcast_S256x1296_S256x1296x1_0_1 : (⟨S256x1296, .f32⟩ : BufTy).Contents (Elt F) → (⟨S256x1296x1, .f32⟩ : BufTy).Contents (Elt F)) ]

/-- The 49 operations are the six stretches in a row. -/
theorem ops_eq : Cert.ReferenceIdeal.Ops.ops (F := F) = s1 ++ (s2 ++ (s3 ++ (s4 ++ (s5 ++ s6)))) := rfl

/-! ## Each stretch, from the stages it reads to the stages it leaves

`W` is any contents of the device's buffers before a stretch. A hypothesis says that a buffer the stretch reads holds its stage
of the argument arrays `x0`, `x1`; the conclusion, that a buffer still read later holds its own stage afterwards. The fold
at the buffer and the buffer's stage, opened down to the stages the stretch takes over, are one and the same expression in
the contents `W` holds; no earlier stage is opened. A buffer the stretch does not write keeps its contents (`_keep_`). -/

section Stretches

variable (W : Valuation τ sig (Elt F)) (x0 : (⟨S256x128x36x36, .f32⟩ : BufTy).Contents (Elt F)) (x1 : (⟨S256x36x36, .i32⟩ : BufTy).Contents (Elt F))

/-! ### Operations 1 to 8: the two reshapes and the one-hot encoding -/

/-- The flattened activations, from the first argument. -/
theorem s1_v0 (h_arg0 : W (Proc.devRef .tc main_arg0) = x0) :
    after (s1 (F := F)) W (Proc.devRef .tc main_v0) = Stages.val_main_v0 (F := F) x0 := by
  after_results
  unfold Stages.val_main_v0
  rw [← h_arg0]
  rfl

/-- The flattened indices, from the second argument. -/
theorem s1_v1 (h_arg1 : W (Proc.devRef .tc main_arg1) = x1) :
    after (s1 (F := F)) W (Proc.devRef .tc main_v1) = Stages.val_main_v1 (F := F) x1 := by
  after_results
  unfold Stages.val_main_v1
  rw [← h_arg1]
  rfl

/-- The one-hot encoding of the indices as floats, from the second argument. -/
theorem s1_v2 (h_arg1 : W (Proc.devRef .tc main_arg1) = x1) :
    after (s1 (F := F)) W (Proc.devRef .tc main_v2) = Stages.val_main_v2 (F := F) x1 := by
  after_results
  unfold Stages.val_main_v2 Stages.val_main_call0_v4 Stages.val_main_call0_v2 Stages.val_main_call0_v0 Stages.val_main_v1 Stages.val_main_call0_v3 Stages.val_main_call0_v1
  rw [← h_arg1]
  rfl

theorem s1_keep_arg0 : after (s1 (F := F)) W (Proc.devRef .tc main_arg0) = W (Proc.devRef .tc main_arg0) := by
  after_results
theorem s1_keep_arg1 : after (s1 (F := F)) W (Proc.devRef .tc main_arg1) = W (Proc.devRef .tc main_arg1) := by
  after_results

/-! ### Operations 9 to 16: the per-class counts and sums -/

theorem s2_keep_v0 : after (s2 (F := F)) W (Proc.devRef .tc main_v0) = W (Proc.devRef .tc main_v0) := by
  after_results
theorem s2_keep_v1 : after (s2 (F := F)) W (Proc.devRef .tc main_v1) = W (Proc.devRef .tc main_v1) := by
  after_results
theorem s2_keep_arg0 : after (s2 (F := F)) W (Proc.devRef .tc main_arg0) = W (Proc.devRef .tc main_arg0) := by
  after_results
theorem s2_keep_arg1 : after (s2 (F := F)) W (Proc.devRef .tc main_arg1) = W (Proc.devRef .tc main_arg1) := by
  after_results

/-- The per-class sums: the activations contracted with the one-hot encoding. -/
theorem s2_v4
    (h_v0 : W (Proc.devRef .tc main_v0) = Stages.val_main_v0 (F := F) x0)
    (h_v2 : W (Proc.devRef .tc main_v2) = Stages.val_main_v2 (F := F) x1) :
    after (s2 (F := F)) W (Proc.devRef .tc main_v4) = Stages.val_main_v4 (F := F) x0 x1 := by
  after_results
  unfold Stages.val_main_v4
  rw [← h_v0, ← h_v2]

/-- The per-class counts plus the small constant, broadcast to the sums' shape. -/
theorem s2_v8
    (h_v2 : W (Proc.devRef .tc main_v2) = Stages.val_main_v2 (F := F) x1) :
    after (s2 (F := F)) W (Proc.devRef .tc main_v8) = Stages.val_main_v8 (F := F) x1 := by
  after_results
  unfold Stages.val_main_v8 Stages.val_main_v7 Stages.val_main_v5 Stages.val_main_v3 Stages.val_main_cst Stages.val_main_v6 Stages.val_main_cst_0
  rw [← h_v2]

/-! ### Operations 17 to 24: the per-class means, the indices broadcast, the first steps of the index normalisation -/

theorem s3_keep_v0 : after (s3 (F := F)) W (Proc.devRef .tc main_v0) = W (Proc.devRef .tc main_v0) := by
  after_results
theorem s3_keep_arg0 : after (s3 (F := F)) W (Proc.devRef .tc main_arg0) = W (Proc.devRef .tc main_arg0) := by
  after_results
theorem s3_keep_arg1 : after (s3 (F := F)) W (Proc.devRef .tc main_arg1) = W (Proc.devRef .tc main_arg1) := by
  after_results

/-- The per-class means. -/
theorem s3_v9
    (h_v4 : W (Proc.devRef .tc main_v4) = Stages.val_main_v4 (F := F) x0 x1)
    (h_v8 : W (Proc.devRef .tc main_v8) = Stages.val_main_v8 (F := F) x1) :
    after (s3 (F := F)) W (Proc.devRef .tc main_v9) = Stages.val_main_v9 (F := F) x0 x1 := by
  after_results
  unfold Stages.val_main_v9
  rw [← h_v4, ← h_v8]

/-- The indices broadcast over the channel axis. -/
theorem s3_v11
    (h_v1 : W (Proc.devRef .tc main_v1) = Stages.val_main_v1 (F := F) x1) :
    after (s3 (F := F)) W (Proc.devRef .tc main_v11) = Stages.val_main_v11 (F := F) x1 := by
  after_results
  unfold Stages.val_main_v11 Stages.val_main_v10
  rw [← h_v1]

/-- Which indices are negative. -/
theorem s3_call1_v1
    (h_v1 : W (Proc.devRef .tc main_v1) = Stages.val_main_v1 (F := F) x1) :
    after (s3 (F := F)) W (Proc.devRef .tc main_call1_v1) = Stages.val_main_call1_v1 (F := F) x1 := by
  after_results
  unfold Stages.val_main_call1_v1 Stages.val_main_v11 Stages.val_main_v10 Stages.val_main_call1_v0 Stages.val_main_call1_c
  rw [← h_v1]
  rfl

/-- The class count, broadcast. -/
theorem s3_call1_v2 :
    after (s3 (F := F)) W (Proc.devRef .tc main_call1_v2) = Stages.val_main_call1_v2 (F := F) := by
  after_results
  unfold Stages.val_main_call1_v2 Stages.val_main_call1_c_0
  rfl

/-! ### Operations 25 to 32: the normalised indices and their lower-bound test -/

theorem s4_keep_v0 : after (s4 (F := F)) W (Proc.devRef .tc main_v0) = W (Proc.devRef .tc main_v0) := by
  after_results
theorem s4_keep_v9 : after (s4 (F := F)) W (Proc.devRef .tc main_v9) = W (Proc.devRef .tc main_v9) := by
  after_results
theorem s4_keep_arg0 : after (s4 (F := F)) W (Proc.devRef .tc main_arg0) = W (Proc.devRef .tc main_arg0) := by
  after_results
theorem s4_keep_arg1 : after (s4 (F := F)) W (Proc.devRef .tc main_arg1) = W (Proc.devRef .tc main_arg1) := by
  after_results

/-- The normalised indices, with the trailing unit axis. -/
theorem s4_call1_v5
    (h_v11 : W (Proc.devRef .tc main_v11) = Stages.val_main_v11 (F := F) x1)
    (h_call1_v1 : W (Proc.devRef .tc main_call1_v1) = Stages.val_main_call1_v1 (F := F) x1)
    (h_call1_v2 : W (Proc.devRef .tc main_call1_v2) = Stages.val_main_call1_v2 (F := F)) :
    after (s4 (F := F)) W (Proc.devRef .tc main_call1_v5) = Stages.val_main_call1_v5 (F := F) x1 := by
  after_results
  unfold Stages.val_main_call1_v5 Stages.val_main_call1_v4 Stages.val_main_call1_v3
  rw [← h_v11, ← h_call1_v1, ← h_call1_v2]
  rfl

/-- Which normalised indices are at least zero. -/
theorem s4_call1_v7
    (h_v11 : W (Proc.devRef .tc main_v11) = Stages.val_main_v11 (F := F) x1)
    (h_call1_v1 : W (Proc.devRef .tc main_call1_v1) = Stages.val_main_call1_v1 (F := F) x1)
    (h_call1_v2 : W (Proc.devRef .tc main_call1_v2) = Stages.val_main_call1_v2 (F := F)) :
    after (s4 (F := F)) W (Proc.devRef .tc main_call1_v7) = Stages.val_main_call1_v7 (F := F) x1 := by
  after_results
  unfold Stages.val_main_call1_v7 Stages.val_main_call1_v5 Stages.val_main_call1_v4 Stages.val_main_call1_v3 Stages.val_main_call1_v6 Stages.val_main_call1_c_2
  rw [← h_v11, ← h_call1_v1, ← h_call1_v2]
  rfl

/-- The largest class, as a rank-four constant. -/
theorem s4_call1_v8 :
    after (s4 (F := F)) W (Proc.devRef .tc main_call1_v8) = Stages.val_main_call1_v8 (F := F) := by
  after_results
  unfold Stages.val_main_call1_v8 Stages.val_main_call1_c_1
  rfl

/-! ### Operations 33 to 40: the in-range mask, the gather, the fill value -/

theorem s5_keep_v0 : after (s5 (F := F)) W (Proc.devRef .tc main_v0) = W (Proc.devRef .tc main_v0) := by
  after_results
theorem s5_keep_arg0 : after (s5 (F := F)) W (Proc.devRef .tc main_arg0) = W (Proc.devRef .tc main_arg0) := by
  after_results
theorem s5_keep_arg1 : after (s5 (F := F)) W (Proc.devRef .tc main_arg1) = W (Proc.devRef .tc main_arg1) := by
  after_results

/-- Which normalised indices are in range. -/
theorem s5_call1_v12
    (h_call1_v5 : W (Proc.devRef .tc main_call1_v5) = Stages.val_main_call1_v5 (F := F) x1)
    (h_call1_v7 : W (Proc.devRef .tc main_call1_v7) = Stages.val_main_call1_v7 (F := F) x1)
    (h_call1_v8 : W (Proc.devRef .tc main_call1_v8) = Stages.val_main_call1_v8 (F := F)) :
    after (s5 (F := F)) W (Proc.devRef .tc main_call1_v12) = Stages.val_main_call1_v12 (F := F) x1 := by
  after_results
  unfold Stages.val_main_call1_v12 Stages.val_main_call1_v11 Stages.val_main_call1_v10 Stages.val_main_call1_v9 Stages.val_main_call1_c_3
  rw [← h_call1_v5, ← h_call1_v7, ← h_call1_v8]
  -- both sides are the conjunction over the unit axis of equal operands: the two bound tests' conjunction, and the constant true
  refine (cast_eq _ _).trans ?_
  refine congrArg₂ (fun a b => Host.reduce IntOp.andi a b _ _) ?_ ?_
  · rfl
  · rfl

/-- The means gathered at the normalised indices. -/
theorem s5_call1_v13
    (h_v9 : W (Proc.devRef .tc main_v9) = Stages.val_main_v9 (F := F) x0 x1)
    (h_call1_v5 : W (Proc.devRef .tc main_call1_v5) = Stages.val_main_call1_v5 (F := F) x1) :
    after (s5 (F := F)) W (Proc.devRef .tc main_call1_v13) = Stages.val_main_call1_v13 (F := F) x0 x1 := by
  after_results
  unfold Stages.val_main_call1_v13
  rw [← h_v9, ← h_call1_v5]
  rfl

/-- The fill value, broadcast. -/
theorem s5_call1_v14 :
    after (s5 (F := F)) W (Proc.devRef .tc main_call1_v14) = Stages.val_main_call1_v14 (F := F) := by
  after_results
  unfold Stages.val_main_call1_v14 Stages.val_main_call1_cst
  rfl

/-! ### Operations 41 to 49: the squared distance to the gathered mean, averaged over the channels -/

theorem s6_keep_arg0 : after (s6 (F := F)) W (Proc.devRef .tc main_arg0) = W (Proc.devRef .tc main_arg0) := by
  after_results
theorem s6_keep_arg1 : after (s6 (F := F)) W (Proc.devRef .tc main_arg1) = W (Proc.devRef .tc main_arg1) := by
  after_results

/-- The result: the mean over the channels of the squared difference. -/
theorem s6_v18
    (h_v0 : W (Proc.devRef .tc main_v0) = Stages.val_main_v0 (F := F) x0)
    (h_call1_v12 : W (Proc.devRef .tc main_call1_v12) = Stages.val_main_call1_v12 (F := F) x1)
    (h_call1_v13 : W (Proc.devRef .tc main_call1_v13) = Stages.val_main_call1_v13 (F := F) x0 x1)
    (h_call1_v14 : W (Proc.devRef .tc main_call1_v14) = Stages.val_main_call1_v14 (F := F)) :
    after (s6 (F := F)) W (Proc.devRef .tc main_v18) = Stages.val_main_v18 (F := F) x0 x1 := by
  after_results
  unfold Stages.val_main_v18 Stages.val_main_v17 Stages.val_main_v15 Stages.val_main_v14 Stages.val_main_v13 Stages.val_main_v12 Stages.val_main_cst_1 Stages.val_main_v16 Stages.val_main_cst_2
  rw [← h_v0, ← h_call1_v12, ← h_call1_v13, ← h_call1_v14]
  rfl

/-! ## The six stretches in a row -/

/-- From contents that hold the two arguments, the six stretches leave the last stage in the result buffer: each stretch's
    facts feed the next one's hypotheses. -/
theorem chain_v18 (h_arg0 : W (Proc.devRef .tc main_arg0) = x0) (h_arg1 : W (Proc.devRef .tc main_arg1) = x1) :
    after (s6 (F := F)) (after s5 (after s4 (after s3 (after s2 (after s1 W))))) (Proc.devRef .tc main_v18)
      = Stages.val_main_v18 (F := F) x0 x1 := by
  -- after operation 8
  have a_v0 := s1_v0 W x0 h_arg0
  have a_v1 := s1_v1 W x1 h_arg1
  have a_v2 := s1_v2 W x1 h_arg1
  -- after operation 16
  have b_v0 := (s2_keep_v0 (after s1 W)).trans a_v0
  have b_v1 := (s2_keep_v1 (after s1 W)).trans a_v1
  have b_v4 := s2_v4 (after s1 W) x0 x1 a_v0 a_v2
  have b_v8 := s2_v8 (after s1 W) x1 a_v2
  -- after operation 24
  have c_v0 := (s3_keep_v0 (after s2 (after s1 W))).trans b_v0
  have c_v9 := s3_v9 (after s2 (after s1 W)) x0 x1 b_v4 b_v8
  have c_v11 := s3_v11 (after s2 (after s1 W)) x1 b_v1
  have c_c1 := s3_call1_v1 (after s2 (after s1 W)) x1 b_v1
  have c_c2 := s3_call1_v2 (after s2 (after s1 W))
  -- after operation 32
  have d_v0 := (s4_keep_v0 (after s3 (after s2 (after s1 W)))).trans c_v0
  have d_v9 := (s4_keep_v9 (after s3 (after s2 (after s1 W)))).trans c_v9
  have d_c5 := s4_call1_v5 (after s3 (after s2 (after s1 W))) x1 c_v11 c_c1 c_c2
  have d_c7 := s4_call1_v7 (after s3 (after s2 (after s1 W))) x1 c_v11 c_c1 c_c2
  have d_c8 := s4_call1_v8 (after s3 (after s2 (after s1 W)))
  -- after operation 40
  have e_v0 := (s5_keep_v0 (after s4 (after s3 (after s2 (after s1 W))))).trans d_v0
  have e_c12 := s5_call1_v12 (after s4 (after s3 (after s2 (after s1 W)))) x1 d_c5 d_c7 d_c8
  have e_c13 := s5_call1_v13 (after s4 (after s3 (after s2 (after s1 W)))) x0 x1 d_v9 d_c5
  have e_c14 := s5_call1_v14 (after s4 (after s3 (after s2 (after s1 W))))
  exact s6_v18 (after s5 (after s4 (after s3 (after s2 (after s1 W))))) x0 x1 e_v0 e_c12 e_c13 e_c14

/-- No stretch writes the first argument. -/
theorem chain_arg0 :
    after (s6 (F := F)) (after s5 (after s4 (after s3 (after s2 (after s1 W))))) (Proc.devRef .tc main_arg0) = W (Proc.devRef .tc main_arg0) := by
  rw [s6_keep_arg0, s5_keep_arg0, s4_keep_arg0, s3_keep_arg0, s2_keep_arg0, s1_keep_arg0]

/-- No stretch writes the second argument. -/
theorem chain_arg1 :
    after (s6 (F := F)) (after s5 (after s4 (after s3 (after s2 (after s1 W))))) (Proc.devRef .tc main_arg1) = W (Proc.devRef .tc main_arg1) := by
  rw [s6_keep_arg1, s5_keep_arg1, s4_keep_arg1, s3_keep_arg1, s2_keep_arg1, s1_keep_arg1]

end Stretches

/-- The fold over the 49 operations is the fold over the six stretches, one after the other. -/
theorem after_ops (V : Valuation τ sig (Elt F)) :
    after (Cert.ReferenceIdeal.Ops.ops (F := F)) V = after s6 (after s5 (after s4 (after s3 (after s2 (after s1 V))))) := by
  rw [ops_eq, StableHlo.after_append, StableHlo.after_append, StableHlo.after_append, StableHlo.after_append, StableHlo.after_append]

/-- The result buffer after the 49 operations, folded over the launch contents, is the last stage of the arguments. -/
theorem after_main_v18 (m : (ℓ : Loc nD τ sig) → Buf (Elt F) ℓ) (c : Dev nD) :
    after (Cert.ReferenceIdeal.Ops.ops (F := F)) (launchContents m c) (Proc.devRef .tc main_v18)
      = Cert.ReferenceIdeal.Stages.val_main_v18 (F := F) (m ((c.tc : Thread nD τ).loc main_arg0)) (m ((c.tc : Thread nD τ).loc main_arg1)) := by
  rw [after_ops]
  exact chain_v18 (launchContents m c) _ _ rfl rfl

/-- No operation writes the first argument. -/
theorem after_main_arg0 (m : (ℓ : Loc nD τ sig) → Buf (Elt F) ℓ) (c : Dev nD) :
    after (Cert.ReferenceIdeal.Ops.ops (F := F)) (launchContents m c) (Proc.devRef .tc main_arg0) = m ((c.tc : Thread nD τ).loc main_arg0) := by
  rw [after_ops, chain_arg0]

/-- No operation writes the second argument. -/
theorem after_main_arg1 (m : (ℓ : Loc nD τ sig) → Buf (Elt F) ℓ) (c : Dev nD) :
    after (Cert.ReferenceIdeal.Ops.ops (F := F)) (launchContents m c) (Proc.devRef .tc main_arg1) = m ((c.tc : Thread nD τ).loc main_arg1) := by
  rw [after_ops, chain_arg1]

/-- The run: termination, the result at the last stage, the arguments kept. -/
theorem run (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_v18) = Cert.ReferenceIdeal.Stages.val_main_v18 (F := F) (m ((c.tc : Thread nD τ).loc main_arg0)) (m ((c.tc : Thread nD τ).loc main_arg1))
      ∧ r.2.mem ((c.tc : Thread nD τ).loc main_arg0) = m ((c.tc : Thread nD τ).loc main_arg0)
      ∧ r.2.mem ((c.tc : Thread nD τ).loc main_arg1) = m ((c.tc : Thread nD τ).loc main_arg1) :=
  (θ_run defs _ _).mono (fun _ h c => ⟨(h c main_v18).trans (after_main_v18 m c),
      (h c main_arg0).trans (after_main_arg0 m c),
      (h c main_arg1).trans (after_main_arg1 m c)⟩)
    (run_seq Cert.ReferenceIdeal.Ops.scopedRefs_eq Cert.ReferenceIdeal.Ops.scopedSems_eq defs main (fun _ => Cert.ReferenceIdeal.Ops.ops) Cert.ReferenceIdeal.Ops.main_eq (fun _ => Cert.ReferenceIdeal.Ops.ops_sub) m ρ)

end Cert.ReferenceIdeal.HandRun

end
-- ==== Proof.RefValue.lean ====
/-
  The reference's result at an index: entry (b, n, 0) of its last stage is the direct form of pixel n's distance to
  the mean of its class, for image b.
-/
import proofs.«401519_j68745246540061_3_alg».proof.Proof.RefStages
import proofs.«401519_j68745246540061_3_alg».proof.Proof.Spec
import Idealize.ShloMosaic.Lib.StableHlo.Predicate

noncomputable section

namespace Cert.ReferenceIdeal.RefValue

open Cert.ReferenceIdeal Cert.ReferenceIdeal.Gen Idealize.ShloMosaic Idealize.ShloMosaic.TcCoe Idealize.ShloMosaic.ValueIdx Cert.ClassDist
open Cert.ReferenceIdeal.Stages

/-! ## Index equations: the composed index functions at coordinates -/

theorem idx_v1_at (b : Fin 256) (n : Fin 1296) : idx_main_v1 (ix2 b n) = ix3 b (pixRow n) (pixCol n) :=
  funext fun a => Fin.ext (by
    have hb := b.isLt; have hn := n.isLt
    match a with
    | ⟨0, _⟩ => show (b.val * 1296 + n.val) / 1296 = b.val; omega
    | ⟨1, _⟩ => show (b.val * 1296 + n.val) / 36 % 36 = n.val / 36; omega
    | ⟨2, _⟩ => show (b.val * 1296 + n.val) % 36 = n.val % 36; omega)

theorem idx_v0_at (b : Fin 256) (d : Fin 128) (n : Fin 1296) :
    idx_main_v0 (ix3 b d n) = ix4 b d (pixRow n) (pixCol n) :=
  funext fun a => Fin.ext (by
    have hb := b.isLt; have hd := d.isLt; have hn := n.isLt
    match a with
    | ⟨0, _⟩ => show ((b.val * 128 + d.val) * 1296 + n.val) / 165888 = b.val; omega
    | ⟨1, _⟩ => show ((b.val * 128 + d.val) * 1296 + n.val) / 1296 % 128 = d.val; omega
    | ⟨2, _⟩ => show ((b.val * 128 + d.val) * 1296 + n.val) / 36 % 36 = n.val / 36; omega
    | ⟨3, _⟩ => show ((b.val * 128 + d.val) * 1296 + n.val) % 36 = n.val % 36; omega)

/-! ## The stages read at coordinates -/

/-- The flattened labels: entry (b, n) is pixel n's label in image b. -/
theorem v1_at (x1 : (⟨S256x36x36, .i32⟩ : BufTy).Contents (Elt Ideal)) (b : Fin 256) (n : Fin 1296) :
    val_main_v1 (F := Ideal) x1 (ix2 b n) = Krow x1 b n := by
  rw [val_main_v1_apply, idx_v1_at]; rfl

/-- The flattened data: entry (b, d, n) is channel d of pixel n in image b. -/
theorem v0_at (x0 : (⟨S256x128x36x36, .f32⟩ : BufTy).Contents (Elt Ideal)) (b : Fin 256) (d : Fin 128) (n : Fin 1296) :
    val_main_v0 (F := Ideal) x0 (ix3 b d n) = Xrow x0 b d n := by
  rw [val_main_v0_apply, idx_v0_at]; rfl

/-- The indicator stage: entry (b, n, c) is 1 when pixel n of image b carries label c, else 0. -/
theorem v2_at (x1 : (⟨S256x36x36, .i32⟩ : BufTy).Contents (Elt Ideal)) (b : Fin 256) (n : Fin 1296) (c : Fin 64) :
    val_main_v2 (F := Ideal) x1 (ix3 b n c) = hot (Krow x1 b) c n := by
  rw [val_main_v2_apply, val_main_call0_v4_apply, val_main_call0_v2_apply, val_main_call0_v0_apply,
    val_main_call0_v3_apply, val_main_call0_v1_apply]
  have e1 : idx_main_call0_v0 (idx_main_call0_v2 (ix3 b n c)) = ix2 b n :=
    funext fun a => Fin.ext (by match a with | ⟨0, _⟩ => rfl | ⟨1, _⟩ => rfl)
  rw [e1, v1_at]
  show FloatOps.uitofp (F := Ideal) .f32 (IntOp.cmpi .eq (Krow x1 b n) (BitVec.ofNat 32 c.val)) = _
  unfold hot
  by_cases h : Krow x1 b n = BitVec.ofNat 32 c.val
  · rw [if_pos h, StableHlo.Predicate.cmpi_eq_iff.mpr h]
    show (((1#1 : BitVec 1).toNat : ℝ) : EReal) = 1
    norm_num
  · rw [if_neg h, eq_zero_of_ne_one (fun e => h (StableHlo.Predicate.cmpi_eq_iff.mp e))]
    show (((0#1 : BitVec 1).toNat : ℝ) : EReal) = 0
    norm_num

/-- The count stage: entry (b, c) is the number of pixels of image b that carry label c. -/
theorem v3_at (x1 : (⟨S256x36x36, .i32⟩ : BufTy).Contents (Elt Ideal)) (b : Fin 256) (c : Fin 64) :
    val_main_v3 (F := Ideal) x1 (ix2 b c) = ClassDist.count (Krow x1 b) c := by
  rw [val_main_v3_apply, val_main_cst_apply]
  show Ideal.ofBits .f32 0x00000000#32 + _ = _
  rw [Ideal.ofBits_zero_f32, zero_add]
  unfold ClassDist.count
  refine Finset.sum_congr rfl fun n _ => ?_
  have e : idx_main_v3 (ix2 b c) n = ix3 b n c :=
    funext fun a => Fin.ext (by match a with | ⟨0, _⟩ => rfl | ⟨1, _⟩ => rfl | ⟨2, _⟩ => rfl)
  rw [e, v2_at]

/-- The class sums: entry (b, d, c) is the sum of channel d over the pixels of image b that carry label c. -/
theorem v4_at (x0 : (⟨S256x128x36x36, .f32⟩ : BufTy).Contents (Elt Ideal)) (x1 : (⟨S256x36x36, .i32⟩ : BufTy).Contents (Elt Ideal))
    (b : Fin 256) (d : Fin 128) (c : Fin 64) :
    val_main_v4 (F := Ideal) x0 x1 (ix3 b d c) = ∑ n : Fin 1296, Xrow x0 b d n * hot (Krow x1 b) c n := by
  rw [val_main_v4_apply]
  refine Finset.sum_congr rfl fun n _ => ?_
  have el : lidx_main_v4 (ix3 b d c) n = ix3 b d n :=
    funext fun a => Fin.ext (by match a with | ⟨0, _⟩ => rfl | ⟨1, _⟩ => rfl | ⟨2, _⟩ => rfl)
  have er : ridx_main_v4 (ix3 b d c) n = ix3 b n c :=
    funext fun a => Fin.ext (by match a with | ⟨0, _⟩ => rfl | ⟨1, _⟩ => rfl | ⟨2, _⟩ => rfl)
  rw [el, er, v0_at, v2_at]

/-- The class means: entry (b, d, c) is the damped mean of channel d over class c of image b. -/
theorem v9_at (x0 : (⟨S256x128x36x36, .f32⟩ : BufTy).Contents (Elt Ideal)) (x1 : (⟨S256x36x36, .i32⟩ : BufTy).Contents (Elt Ideal))
    (b : Fin 256) (d : Fin 128) (c : Fin 64) :
    val_main_v9 (F := Ideal) x0 x1 (ix3 b d c) = rmean (Xrow x0 b) (Krow x1 b) d c := by
  rw [val_main_v9_apply, Ideal.hostDivf_def, v4_at, val_main_v8_apply, val_main_v7_apply, val_main_v5_apply,
    val_main_v6_apply, val_main_cst_0_apply]
  have e5 : idx_main_v5 (idx_main_v8 (ix3 b d c)) = ix2 b c :=
    funext fun a => Fin.ext (by match a with | ⟨0, _⟩ => rfl | ⟨1, _⟩ => rfl)
  rw [e5, v3_at]
  rfl

/-! ## The class lookup: labels, the in-range mask and the gather -/

/-- The labels broadcast over channels: entry (b, d, n) is pixel n's label in image b. -/
theorem v11_at (x1 : (⟨S256x36x36, .i32⟩ : BufTy).Contents (Elt Ideal)) (b : Fin 256) (d : Fin 128) (n : Fin 1296) :
    val_main_v11 (F := Ideal) x1 (ix3 b d n) = Krow x1 b n := by
  rw [val_main_v11_apply, val_main_v10_apply]
  have e : idx_main_v10 (idx_main_v11 (ix3 b d n)) = ix2 b n :=
    funext fun a => Fin.ext (by match a with | ⟨0, _⟩ => rfl | ⟨1, _⟩ => rfl)
  rw [e, v1_at]

/-- A class number below 64, as a 32-bit word, has that value. -/
theorem toNat_class (k : Fin 64) : (BitVec.ofNat 32 k.val).toNat = k.val := by
  rw [BitVec.toNat_ofNat]; exact Nat.mod_eq_of_lt (by have := k.isLt; omega)

/-- The wrapped index: a label that is a class number is not negative, so it is kept as it is. -/
theorem call1_v4_at (x1 : (⟨S256x36x36, .i32⟩ : BufTy).Contents (Elt Ideal)) (b : Fin 256) (d : Fin 128) (n : Fin 1296)
    (k : Fin 64) (hk : Krow x1 b n = BitVec.ofNat 32 k.val) :
    val_main_call1_v4 (F := Ideal) x1 (ix3 b d n) = BitVec.ofNat 32 k.val := by
  rw [val_main_call1_v4_apply, val_main_call1_v1_apply, val_main_call1_v0_apply, val_main_call1_c_apply, v11_at, hk]
  have hlt : ¬ IntOp.cmpi .slt (BitVec.ofNat 32 k.val) 0#32 = 1#1 := by
    rw [StableHlo.Predicate.slt_iff_toNat (by rw [toNat_class]; have := k.isLt; omega) (by decide)]
    exact Nat.not_lt_zero _
  rw [eq_zero_of_ne_one hlt, select_zero]

theorem idx_call1_v5_at (b : Fin 256) (d : Fin 128) (n : Fin 1296) (z : Fin 1) :
    idx_main_call1_v5 (ix4 b d n z) = ix3 b d n :=
  funext fun a => Fin.ext (by
    have hb := b.isLt; have hd := d.isLt; have hn := n.isLt; have hz := z.isLt
    match a with
    | ⟨0, _⟩ => show (((b.val * 128 + d.val) * 1296 + n.val) * 1 + z.val) / 165888 = b.val; omega
    | ⟨1, _⟩ => show (((b.val * 128 + d.val) * 1296 + n.val) * 1 + z.val) / 1296 % 128 = d.val; omega
    | ⟨2, _⟩ => show (((b.val * 128 + d.val) * 1296 + n.val) * 1 + z.val) % 1296 = n.val; omega)

/-- The start indices of the gather: entry (b, d, n, 0) is the class number of pixel n. -/
theorem call1_v5_at (x1 : (⟨S256x36x36, .i32⟩ : BufTy).Contents (Elt Ideal)) (b : Fin 256) (d : Fin 128) (n : Fin 1296)
    (z : Fin 1) (k : Fin 64) (hk : Krow x1 b n = BitVec.ofNat 32 k.val) :
    val_main_call1_v5 (F := Ideal) x1 (ix4 b d n z) = BitVec.ofNat 32 k.val := by
  rw [val_main_call1_v5_apply, idx_call1_v5_at, call1_v4_at x1 b d n k hk]

/-- The in-range test of a class number: 0 ≤ k ≤ 63 holds. -/
theorem call1_v11_at (x1 : (⟨S256x36x36, .i32⟩ : BufTy).Contents (Elt Ideal)) (b : Fin 256) (d : Fin 128) (n : Fin 1296)
    (z : Fin 1) (k : Fin 64) (hk : Krow x1 b n = BitVec.ofNat 32 k.val) :
    val_main_call1_v11 (F := Ideal) x1 (ix4 b d n z) = 1#1 := by
  rw [val_main_call1_v11_apply, val_main_call1_v7_apply, val_main_call1_v10_apply, val_main_call1_v6_apply,
    val_main_call1_c_2_apply, val_main_call1_v9_apply, val_main_call1_v8_apply, val_main_call1_c_1_apply,
    call1_v5_at x1 b d n z k hk]
  have hk31 : (BitVec.ofNat 32 k.val).toNat < 2 ^ 31 := by rw [toNat_class]; have := k.isLt; omega
  have hge : IntOp.cmpi .sge (BitVec.ofNat 32 k.val) 0#32 = 1#1 :=
    (StableHlo.Predicate.sge_iff_toNat hk31 (by decide)).mpr (Nat.zero_le _)
  have hle : IntOp.cmpi .sle (BitVec.ofNat 32 k.val) 63#32 = 1#1 :=
    (StableHlo.Predicate.sle_iff_toNat hk31 (by decide)).mpr (by
      rw [toNat_class]; have := k.isLt; show k.val ≤ 63; omega)
  rw [hge, hle]; rfl

/-- A fold of one-bit conjunction, from 1, over words that are all 1 is 1. -/
theorem fold_andi_ones {ι : Type} (s : Finset ι) (f : ι → BitVec 1) (hf : ∀ i ∈ s, f i = 1#1) :
    s.fold IntOp.andi 1#1 f = 1#1 := by
  induction s using Finset.cons_induction with
  | empty => rfl
  | cons a s ha ih =>
    rw [Finset.fold_cons, hf a (Finset.mem_cons_self a s), ih fun i hi => hf i (Finset.mem_cons.2 (Or.inr hi))]
    rfl

/-- The mask of the lookup at a pixel whose label is a class number: every start index is in range. -/
theorem call1_v12_at (x1 : (⟨S256x36x36, .i32⟩ : BufTy).Contents (Elt Ideal)) (b : Fin 256) (d : Fin 128) (n : Fin 1296)
    (k : Fin 64) (hk : Krow x1 b n = BitVec.ofNat 32 k.val) :
    val_main_call1_v12 (F := Ideal) x1 (ix3 b d n) = 1#1 := by
  unfold val_main_call1_v12
  have h : S256x128x1296x1.Reduces [3] S256x128x1296 := by decide
  rw [Host.reduce_eq_fold_single IntOp.andi _ _ reducesTo_S256x128x1296x1_S256x128x1296_d3 h h_S_ (ix3 b d n),
    val_main_call1_c_3_apply]
  refine fold_andi_ones _ _ fun q _ => ?_
  have hl : h.lift (ix3 b d n) q = ix4 b d n (⟨q.val, q.isLt⟩ : Fin 1) :=
    funext fun a => Fin.ext (by match a with | ⟨0, _⟩ => rfl | ⟨1, _⟩ => rfl | ⟨2, _⟩ => rfl | ⟨3, _⟩ => rfl)
  show val_main_call1_v11 (F := Ideal) x1 (h.lift (ix3 b d n) q) = 1#1
  rw [hl, call1_v11_at x1 b d n _ k hk]

/-- The gather of the class lookup read at (b, d, n): the operand at (b, d, ·), at the start index (b, d, n, 0) read
    signed and clamped into the 64 classes. -/
theorem gather_at {α : Type} (x : S256x128x64.Idx → α) (idx : IVec S256x128x1296x1 32) (b : Fin 256) (d : Fin 128)
    (n : Fin 1296) :
    Host.gather gather_S256x128x64_S256x128x1296x1_S256x128x1296_n_2_01_01_2_3_111 x idx (ix3 b d n)
      = x (ix3 b d (⟨min (idx (ix4 b d n (0 : Fin 1))).toInt.toNat 63, by omega⟩ : Fin 64)) := by
  unfold Host.gather
  refine congrArg x (funext fun a => Fin.ext ?_)
  match a with
  | ⟨0, _⟩ =>
    show gather_S256x128x64_S256x128x1296x1_S256x128x1296_n_2_01_01_2_3_111.start (ix3 b d n) idx 0
        + gather_S256x128x64_S256x128x1296x1_S256x128x1296_n_2_01_01_2_3_111.batchCoord (ix3 b d n) 0
        + gather_S256x128x64_S256x128x1296x1_S256x128x1296_n_2_01_01_2_3_111.offCoord (ix3 b d n) 0
      = b.val
    rw [GatherDims.start_batching _ _ _ _ (by decide), GatherDims.offCoord_eq_zero _ _ _ (by decide)]
    simp only [Nat.zero_add, Nat.add_zero]
    unfold GatherDims.batchCoord
    rw [dif_pos (by decide)]
    rfl
  | ⟨1, _⟩ =>
    show gather_S256x128x64_S256x128x1296x1_S256x128x1296_n_2_01_01_2_3_111.start (ix3 b d n) idx 1
        + gather_S256x128x64_S256x128x1296x1_S256x128x1296_n_2_01_01_2_3_111.batchCoord (ix3 b d n) 1
        + gather_S256x128x64_S256x128x1296x1_S256x128x1296_n_2_01_01_2_3_111.offCoord (ix3 b d n) 1
      = d.val
    rw [GatherDims.start_batching _ _ _ _ (by decide), GatherDims.offCoord_eq_zero _ _ _ (by decide)]
    simp only [Nat.zero_add, Nat.add_zero]
    unfold GatherDims.batchCoord
    rw [dif_pos (by decide)]
    rfl
  | ⟨2, _⟩ =>
    show gather_S256x128x64_S256x128x1296x1_S256x128x1296_n_2_01_01_2_3_111.start (ix3 b d n) idx 2
        + gather_S256x128x64_S256x128x1296x1_S256x128x1296_n_2_01_01_2_3_111.batchCoord (ix3 b d n) 2
        + gather_S256x128x64_S256x128x1296x1_S256x128x1296_n_2_01_01_2_3_111.offCoord (ix3 b d n) 2
      = min (idx (ix4 b d n (0 : Fin 1))).toInt.toNat 63
    rw [GatherDims.batchCoord_eq_zero _ _ _ (by decide), GatherDims.offCoord_eq_zero _ _ _ (by decide)]
    simp only [Nat.add_zero]
    unfold GatherDims.start
    rw [dif_pos (show (2 : Fin S256x128x64.rank) ∈ gather_S256x128x64_S256x128x1296x1_S256x128x1296_n_2_01_01_2_3_111.startIndexMap
      from List.mem_singleton.mpr rfl)]
    have hsi : gather_S256x128x64_S256x128x1296x1_S256x128x1296_n_2_01_01_2_3_111.siIdx (ix3 b d n)
        ⟨List.idxOf (2 : Fin S256x128x64.rank) gather_S256x128x64_S256x128x1296x1_S256x128x1296_n_2_01_01_2_3_111.startIndexMap,
          List.idxOf_lt_length_iff.2 (List.mem_singleton.mpr rfl)⟩ = ix4 b d n (0 : Fin 1) :=
      funext fun e => Fin.ext (by
        match e with
        | ⟨0, _⟩ => rfl
        | ⟨1, _⟩ => rfl
        | ⟨2, _⟩ => rfl
        | ⟨3, _⟩ => rfl)
    rw [hsi]
    rfl

/-- The same gather when the start index at (b, d, n, 0) is the class number k: the operand at (b, d, k). -/
theorem gather_class {α : Type} (x : S256x128x64.Idx → α) (idx : IVec S256x128x1296x1 32) (b : Fin 256) (d : Fin 128)
    (n : Fin 1296) (k : Fin 64) (hidx : idx (ix4 b d n (0 : Fin 1)) = BitVec.ofNat 32 k.val) :
    Host.gather gather_S256x128x64_S256x128x1296x1_S256x128x1296_n_2_01_01_2_3_111 x idx (ix3 b d n) = x (ix3 b d k) := by
  rw [gather_at]
  refine congrArg x (congrArg (ix3 b d) (Fin.ext ?_))
  show min (idx (ix4 b d n (0 : Fin 1))).toInt.toNat 63 = k.val
  have hk := k.isLt
  rw [hidx, StableHlo.Predicate.toInt_ofNat_small k.val (by omega), Int.toNat_natCast]
  omega

/-- The looked-up mean: for a pixel of class k, entry (b, d, n) is the mean of channel d over class k. -/
theorem v12_at (x0 : (⟨S256x128x36x36, .f32⟩ : BufTy).Contents (Elt Ideal)) (x1 : (⟨S256x36x36, .i32⟩ : BufTy).Contents (Elt Ideal))
    (b : Fin 256) (d : Fin 128) (n : Fin 1296) (k : Fin 64) (hk : Krow x1 b n = BitVec.ofNat 32 k.val) :
    val_main_v12 (F := Ideal) x0 x1 (ix3 b d n) = rmean (Xrow x0 b) (Krow x1 b) d k := by
  rw [val_main_v12_apply, call1_v12_at x1 b d n k hk, select_one]
  unfold val_main_call1_v13
  rw [gather_class _ _ b d n k (call1_v5_at x1 b d n 0 k hk), v9_at]

/-! ## The result -/

/-- For a pixel whose label is the class `k < 64`, the reference's result at (b, n, z) is the mean over channels of the
    squared difference between the pixel and the damped mean of class `k` in image `b`. -/
theorem val_main_v18_at (x0 : (⟨S256x128x36x36, .f32⟩ : BufTy).Contents (Elt Ideal)) (x1 : (⟨S256x36x36, .i32⟩ : BufTy).Contents (Elt Ideal))
    (b : Fin 256) (n : Fin 1296) (z : Fin 1) (k : Fin 64) (hk : Krow x1 b n = BitVec.ofNat 32 k.val) :
    Cert.ReferenceIdeal.Stages.val_main_v18 (F := Ideal) x0 x1 (ix3 b n z) = refVal1 (Xrow x0 b) (Krow x1 b) n k := by
  rw [val_main_v18_apply, val_main_v17_apply, Ideal.hostDivf_def, val_main_v16_apply, val_main_cst_2_apply]
  have e18 : idx_main_v18 (ix3 b n z) = ix2 b n :=
    funext fun a => Fin.ext (by match a with | ⟨0, _⟩ => rfl | ⟨1, _⟩ => rfl)
  rw [e18, val_main_v15_apply, val_main_cst_1_apply]
  show Ideal.div (Ideal.ofBits .f32 0x00000000#32 + _) c128 = _
  rw [Ideal.ofBits_zero_f32, zero_add]
  unfold refVal1
  refine congrArg (fun s => Ideal.div s c128) (Finset.sum_congr rfl fun d _ => ?_)
  have e15 : idx_main_v15 (ix2 b n) d = ix3 b d n :=
    funext fun a => Fin.ext (by match a with | ⟨0, _⟩ => rfl | ⟨1, _⟩ => rfl | ⟨2, _⟩ => rfl)
  rw [e15, val_main_v14_apply, val_main_v13_apply, v0_at, v12_at x0 x1 b d n k hk]
  rfl

end Cert.ReferenceIdeal.RefValue

end
-- ==== Proof.lean ====
/-
  Per image, the squared distance of every pixel's embedding to the (damped) mean embedding of the pixel's class.

  The kernel works on blocks of 8 images. For each it forms the 64 class indicators of the 1296 pixels, the class counts
  and class sums (a product of the indicators with the embeddings), the damped class means μ, their products with the
  embeddings and their mean squares, and returns for pixel n of class k the EXPANDED form
      max ( (∑_d x_d²)/128 + ( (∑_d μ_{k,d}²)/128 − (1/64)·∑_d μ_{k,d}·x_d ), 0 ),
  the class picked by a sum over all classes masked with the pixel's indicator. The reference gathers each pixel's class
  mean and returns the DIRECT form (∑_d (x_d − μ_{k,d})²)/128. Over the reals the two agree: expand the square; the value
  is non-negative, so the clamp at zero does nothing. The law needs the embeddings finite (then the sums, the means and
  the products are real) and the label of every pixel a class, 0 ≤ label < 64 (outside that range the reference's gather
  wraps a negative index or fills its result, while the kernel's indicator row is zero): both are the precondition.
  Changes of float format are the identity on the extended reals, which is the one idealization recorded (`preserves`).

  The parts: Spec (both forms, as functions of one image), Algebra (the law), PreDecode (what the precondition says),
  KBlock / KArray / KTail (the kernel's block, its array, its program's result), RefStages / RefOps / RefRun / RefValue
  (the reference's operations, its run over them, its result at an index).
-/
import proofs.«401519_j68745246540061_3_alg».proof.Defs
import proofs.«401519_j68745246540061_3_alg».proof.Proof.Gen.Kernel
import proofs.«401519_j68745246540061_3_alg».proof.Proof.Gen.Kernel.Skeleton
import proofs.«401519_j68745246540061_3_alg».proof.Proof.Gen.Kernel.Launch
import proofs.«401519_j68745246540061_3_alg».proof.Proof.Gen.Kernel.Points
import proofs.«401519_j68745246540061_3_alg».proof.Proof.Gen.Kernel.Frame
import proofs.«401519_j68745246540061_3_alg».proof.Proof.Gen.KernelIdeal
import proofs.«401519_j68745246540061_3_alg».proof.Proof.Gen.KernelIdeal.Skeleton
import proofs.«401519_j68745246540061_3_alg».proof.Proof.Gen.KernelIdeal.Launch
import proofs.«401519_j68745246540061_3_alg».proof.Proof.Gen.KernelIdeal.Points
import proofs.«401519_j68745246540061_3_alg».proof.Proof.Gen.KernelIdeal.Frame
import proofs.«401519_j68745246540061_3_alg».proof.Proof.Gen.ReferenceIdeal
import proofs.«401519_j68745246540061_3_alg».proof.Proof.Gen.Pre_finite_inputs
import proofs.«401519_j68745246540061_3_alg».proof.Proof.Algebra
import proofs.«401519_j68745246540061_3_alg».proof.Proof.PreDecode
import proofs.«401519_j68745246540061_3_alg».proof.Proof.KTail
import proofs.«401519_j68745246540061_3_alg».proof.Proof.RefRun
import proofs.«401519_j68745246540061_3_alg».proof.Proof.RefValue
import Idealize.ShloMosaic.Adequacy
import Idealize.ShloMosaic.Init

noncomputable section

namespace Cert.Proof

open Idealize.ShloMosaic Idealize.ShloMosaic.ValueIdx Idealize.SL.Sem Cert.ClassDist

/-- The kernel as printed runs and keeps its arguments: the generated frame. -/
theorem frame_k [Cert.Kernel.Facts] [Cert.Pre_finite_inputs.Facts] : Cert.frame_Kernel := fun m ρ _ => Cert.Kernel.Gen.frame m ρ

/-- So does its idealization. -/
theorem frame_ki [Cert.KernelIdeal.Facts] [Cert.Pre_finite_inputs.Facts] : Cert.frame_KernelIdeal := fun m ρ _ => Cert.KernelIdeal.Gen.frame m ρ

/-- The reference's run with its result dropped. -/
theorem frame_ri [Cert.ReferenceIdeal.Facts] [Cert.Pre_finite_inputs.Facts] : Cert.frame_ReferenceIdeal := fun m ρ _ =>
  (θ_run Cert.ReferenceIdeal.defs _ _).mono (fun _ h c => (h c).2) (Cert.ReferenceIdeal.HandRun.run (F := Ideal) m ρ)

/-- The one recorded rewrite: widening a value just narrowed to bf16 gives the value back, on the extended reals. -/
theorem preserves : Cert.preserves_Kernel_KernelIdeal :=
  IdealRules.truncf_extf.statement Cert.KernelIdeal.S8x64x128 .f32 .bf16

/-- Both programs end, from memories that agree on the arguments, with equal results: the kernel's at the expanded form
    (its run, read), the reference's at the direct form of the same arguments (its run, read at an index), and the two
    forms agree for finite embeddings and labels that are classes. -/
theorem algebraic [Cert.KernelIdeal.Facts] [Cert.ReferenceIdeal.Facts] [Cert.Pre_finite_inputs.Facts] : Cert.algebraic_KernelIdeal_ReferenceIdeal := by
  intro m ρ m' ρ' hpre hagree
  refine ⟨fun c => (fun i => outK (m ((c.tc : Thread Cert.KernelIdeal.nD Cert.KernelIdeal.τ).loc Cert.KernelIdeal.main_arg0)) (m ((c.tc : Thread Cert.KernelIdeal.nD Cert.KernelIdeal.τ).loc Cert.KernelIdeal.main_arg1)) i),
    Cert.KernelIdeal.KTail.run m ρ, ?_⟩
  refine (θ_run Cert.ReferenceIdeal.defs _ _).mono (fun r h c => ⟨(h c).1.trans ?_, (h c).2⟩)
    (Cert.ReferenceIdeal.HandRun.run (F := Ideal) m' ρ')
  rw [(hagree c).1, (hagree c).2]
  obtain ⟨hfin, hrange⟩ := Cert.PreDecode.decode _ _ (hpre c)
  funext i
  obtain ⟨b, n, z, rfl⟩ : ∃ (b : Fin 256) (n : Fin 1296) (z : Fin 1), i = ix3 b n z := ⟨i 0, i 1, i 2, eq_ix3 i⟩
  have hlt : (Krow (m ((c.tc : Thread Cert.KernelIdeal.nD Cert.KernelIdeal.τ).loc Cert.KernelIdeal.main_arg1)) b n).toNat < 64 := hrange _
  have hk : Krow (m ((c.tc : Thread Cert.KernelIdeal.nD Cert.KernelIdeal.τ).loc Cert.KernelIdeal.main_arg1)) b n
      = BitVec.ofNat 32 (⟨_, hlt⟩ : Fin 64).val := by
    simp only [BitVec.ofNat_toNat, BitVec.setWidth_eq]
  rw [Cert.ReferenceIdeal.RefValue.val_main_v18_at _ _ b n z ⟨_, hlt⟩ hk]
  exact (kernelVal1_eq_refVal1 _ _ (fun d n' => hfin _) n ⟨_, hlt⟩ hk).symm

theorem claim : Cert.Claim := ⟨Cert.Kernel.Gen.facts, Cert.KernelIdeal.Gen.facts, Cert.ReferenceIdeal.Gen.facts, Cert.Pre_finite_inputs.Gen.facts,
  frame_k, frame_ki, frame_ri, preserves, algebraic⟩

end Cert.Proof

end
